-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x64x16 : Shape := ⟨3, ![1024, 64, 16]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x64x16 : S_.BroadcastsInDim S1024x64x16 (![] : Fin 0 → Fin S1024x64x16.rank)
  reducesTo_S1024x64x16_S_d0_1_2 : S1024x64x16.ReducesTo [0, 1, 2] S_

variable [Facts]

def fn {F : FTy → Type} [FloatOps F] (main_arg0 : FVec F S512x1024 .f32) (main_arg1 : FVec F S1024x64x16 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x64x16 .f32 := Host.absf main_arg1
  let main_cst_0 : FVec F S_ .f32 := constant S_ .f32 0x7F800000#32
  let main_v5 : FVec F S1024x64x16 .f32 := broadcastInDim S1024x64x16 ![] bcast_S_S1024x64x16 main_cst_0
  let main_v6 : IVec S1024x64x16 1 := cmpf .olt main_v4 main_v5
  let main_c_1 : IVec S_ 1 := constantI S_ 1 1#1
  let main_v7 : IVec S_ 1 := (fun x v => Host.reduce IntOp.andi x v reducesTo_S1024x64x16_S_d0_1_2 h_S_) main_v6 main_c_1
  let main_v8 : IVec S_ 1 := andi main_v3 main_v7
  main_v8
-- ==== Kernel.lean ====
abbrev S512x1024 : Shape := ⟨2, ![512, 1024]⟩
abbrev S1024x64x16 : Shape := ⟨3, ![1024, 64, 16]⟩
abbrev S1024x1024 : Shape := ⟨2, ![1024, 1024]⟩
abbrev S128x1024 : Shape := ⟨2, ![128, 1024]⟩
abbrev S1024 : Shape := ⟨1, ![1024]⟩
abbrev S_ : Shape := ⟨0, ![]⟩
abbrev S1024x1 : Shape := ⟨2, ![1024, 1]⟩
abbrev S64 : Shape := ⟨1, ![64]⟩
abbrev S1x64 : Shape := ⟨2, ![1, 64]⟩
abbrev S1024x64 : Shape := ⟨2, ![1024, 64]⟩
abbrev S512x64 : Shape := ⟨2, ![512, 64]⟩
abbrev S32x1024 : Shape := ⟨2, ![32, 1024]⟩
abbrev S128x64 : Shape := ⟨2, ![128, 64]⟩
abbrev S128x1x1024 : Shape := ⟨3, ![128, 1, 1024]⟩
abbrev S1x32x1024 : Shape := ⟨3, ![1, 32, 1024]⟩
abbrev S128x32x1024 : Shape := ⟨3, ![128, 32, 1024]⟩
abbrev S4096x1024 : Shape := ⟨2, ![4096, 1024]⟩
abbrev S4096x64 : Shape := ⟨2, ![4096, 64]⟩
abbrev S128x32x64 : Shape := ⟨3, ![128, 32, 64]⟩
abbrev S512x1088 : Shape := ⟨2, ![512, 1088]⟩

abbrev nBuf : Space → Nat
  | .hbm => 32
  | .vmem => 13
  | .smem => 0
  | _ => 0

abbrev bufTy : (tb : Table) → Fin (tcTables nBuf tb) → BufTy
  | .hbm, ⟨0, _⟩ => ⟨S512x1024, .f32⟩
  | .hbm, ⟨1, _⟩ => ⟨S1024x64x16, .f32⟩
  | .hbm, ⟨2, _⟩ => ⟨S1024x1024, .f32⟩
  | .hbm, ⟨3, _⟩ => ⟨S512x1024, .f32⟩
  | .hbm, ⟨4, _⟩ => ⟨S1024, .i32⟩
  | .hbm, ⟨5, _⟩ => ⟨S_, .i32⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S1024, .i1⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S1024x1, .i32⟩
  | .hbm, ⟨24, _⟩ => ⟨S64, .i32⟩
  | .hbm, ⟨25, _⟩ => ⟨S1x64, .i32⟩
  | .hbm, ⟨26, _⟩ => ⟨S1024x64, .i32⟩
  | .hbm, ⟨27, _⟩ => ⟨S1024x64, .i32⟩
  | .hbm, ⟨28, _⟩ => ⟨S1024x64, .i1⟩
  | .hbm, ⟨29, _⟩ => ⟨S1024x64, .bf16⟩
  | .hbm, ⟨30, _⟩ => ⟨S512x64, .f32⟩
  | .hbm, ⟨31, _⟩ => ⟨S512x1088, .f32⟩
  | .local _ .vmem, ⟨0, _⟩ => ⟨S128x1024, .f32⟩
  | .local _ .vmem, ⟨1, _⟩ => ⟨S128x1024, .f32⟩
  | .local _ .vmem, ⟨2, _⟩ => ⟨S1024x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S32x1024, .f32⟩
  | .local _ .vmem, ⟨8, _⟩ => ⟨S32x1024, .f32⟩
  | .local _ .vmem, ⟨9, _⟩ => ⟨S1024x64, .bf16⟩
  | .local _ .vmem, ⟨10, _⟩ => ⟨S128x64, .f32⟩
  | .local _ .vmem, ⟨11, _⟩ => ⟨S128x64, .f32⟩
  | .local _ .vmem, ⟨12, _⟩ => ⟨S128x64, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_12 : BitVec 32 := 0#32
  let v30 : BitVec 1 := Scalar.cmpi .ne v29 c0_i32_12
  v30

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1024x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S128x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S1024x64x16_S1024x1024 : S1024x64x16.ShapeCasts S1024x1024
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bcast_S_S1024 : S_.BroadcastsInDim S1024 (![] : Fin 0 → Fin S1024.rank)
  bcast_S1024_S1024x1_0 : S1024.BroadcastsInDim S1024x1 (![0] : Fin 1 → Fin S1024x1.rank)
  bcast_S64_S1x64_1 : S64.BroadcastsInDim S1x64 (![1] : Fin 1 → Fin S1x64.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  shapeCasts_S128x1024_S128x1024 : S128x1024.ShapeCasts S128x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  shapeCasts_S128x1024_S128x1x1024 : S128x1024.ShapeCasts S128x1x1024
  shapeCasts_S32x1024_S1x32x1024 : S32x1024.ShapeCasts S1x32x1024
  broadcasts_S128x1x1024_S128x32x1024 : S128x1x1024.Broadcasts S128x32x1024
  broadcasts_S1x32x1024_S128x32x1024 : S1x32x1024.Broadcasts S128x32x1024
  shapeCasts_S128x32x1024_S4096x1024 : S128x32x1024.ShapeCasts S4096x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  shapeCasts_S4096x64_S128x32x64 : S4096x64.ShapeCasts S128x32x64
  reduces_S128x32x64_S128x64 : S128x32x64.Reduces [1] S128x64
  concatenates_S512x1024_S512x64_S512x1088_d1 : Shape.Concatenates [S512x1024, S512x64] S512x1088 1
  dot_S128x1024_S1024x1024_S128x1024_1_0_0_1_n_n_wf : DotDims.WF S128x1024 S1024x1024 S128x1024 [1] [0] [0] [1] [] []
  dot_S4096x1024_S1024x64_S4096x64_1_0_0_1_n_n_wf : DotDims.WF S4096x1024 S1024x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S512x1024.size a
  hwx0_0 : ∀ i : grid0.Coords, EltTy.bits .f32 = 32 ∨ (Rect.block (s := S512x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S512x1024.size a
  hwx0_2 : ∀ i : grid0.Coords, EltTy.bits .f32 = 32 ∨ (Rect.block (s := S512x1024) S128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S512x1024.size a
  hwx1_0 : ∀ i : grid1.Coords, EltTy.bits .f32 = 32 ∨ (Rect.block (s := S512x1024) S128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1024.size a ≤ S512x1024.size a
  hwx1_1 : ∀ i : grid1.Coords, EltTy.bits .f32 = 32 ∨ (Rect.block (s := S512x1024) S32x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S1024x64.size a
  hwx1_2 : ∀ i : grid1.Coords, EltTy.bits .bf16 = 32 ∨ (Rect.block (s := S1024x64) S1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S512x64.size a
  hwx1_3 : ∀ i : grid1.Coords, EltTy.bits .f32 = 32 ∨ (Rect.block (s := S512x64) S128x64.size (cc1_transform_3 i) (hinb1_3 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S32x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1024x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S128x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S512x1024 : Shape := ⟨2, ![512, 1024]⟩
abbrev S1024x64x16 : Shape := ⟨3, ![1024, 64, 16]⟩
abbrev S1024x1024 : Shape := ⟨2, ![1024, 1024]⟩
abbrev S512x64x16 : Shape := ⟨3, ![512, 64, 16]⟩
abbrev S1x512x64x16 : Shape := ⟨4, ![1, 512, 64, 16]⟩
abbrev S512x1x64x16 : Shape := ⟨4, ![512, 1, 64, 16]⟩
abbrev S512x512x64x16 : Shape := ⟨4, ![512, 512, 64, 16]⟩
abbrev S_ : Shape := ⟨0, ![]⟩
abbrev S512x512x64 : Shape := ⟨3, ![512, 512, 64]⟩
abbrev S512x64 : Shape := ⟨2, ![512, 64]⟩
abbrev S512x1088 : Shape := ⟨2, ![512, 1088]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x64x16, .f32⟩
  | .hbm, ⟨2, _⟩ => ⟨S1024x1024, .f32⟩
  | .hbm, ⟨3, _⟩ => ⟨S512x1024, .f32⟩
  | .hbm, ⟨4, _⟩ => ⟨S512x64x16, .f32⟩
  | .hbm, ⟨5, _⟩ => ⟨S1x512x64x16, .f32⟩
  | .hbm, ⟨6, _⟩ => ⟨S512x1x64x16, .f32⟩
  | .hbm, ⟨7, _⟩ => ⟨S512x512x64x16, .f32⟩
  | .hbm, ⟨8, _⟩ => ⟨S512x512x64x16, .f32⟩
  | .hbm, ⟨9, _⟩ => ⟨S512x512x64x16, .f32⟩
  | .hbm, ⟨10, _⟩ => ⟨S512x512x64x16, .f32⟩
  | .hbm, ⟨11, _⟩ => ⟨S_, .f32⟩
  | .hbm, ⟨12, _⟩ => ⟨S512x512x64, .f32⟩
  | .hbm, ⟨13, _⟩ => ⟨S512x512x64, .f32⟩
  | .hbm, ⟨14, _⟩ => ⟨S512x512x64, .f32⟩
  | .hbm, ⟨15, _⟩ => ⟨S_, .f32⟩
  | .hbm, ⟨16, _⟩ => ⟨S512x64, .f32⟩
  | .hbm, ⟨17, _⟩ => ⟨S512x1088, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  shapeCasts_S1024x64x16_S1024x1024 : S1024x64x16.ShapeCasts S1024x1024
  shapeCasts_S512x1024_S512x64x16 : S512x1024.ShapeCasts S512x64x16
  bcast_S512x64x16_S1x512x64x16_1_2_3 : S512x64x16.BroadcastsInDim S1x512x64x16 (![1, 2, 3] : Fin 3 → Fin S1x512x64x16.rank)
  bcast_S512x64x16_S512x1x64x16_0_2_3 : S512x64x16.BroadcastsInDim S512x1x64x16 (![0, 2, 3] : Fin 3 → Fin S512x1x64x16.rank)
  bcast_S1x512x64x16_S512x512x64x16_0_1_2_3 : S1x512x64x16.BroadcastsInDim S512x512x64x16 (![0, 1, 2, 3] : Fin 4 → Fin S512x512x64x16.rank)
  bcast_S512x1x64x16_S512x512x64x16_0_1_2_3 : S512x1x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  reducesTo_S512x512x64_S512x64_d1 : S512x512x64.ReducesTo [1] S512x64
  concatenates_S512x1024_S512x64_S512x1088_d1 : Shape.Concatenates [S512x1024, S512x64] S512x1088 1
  dot_S512x1024_S1024x1024_S512x1024_1_0_0_1_n_n_wf : DotDims.WF S512x1024 S1024x1024 S512x1024 [1] [0] [0] [1] [] []

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

class Facts : Prop extends Facts₀ where

variable [Facts]
-- ==== Proof.Kernel.Region0.lean ====
/-
  The projection region (the first pallas_call) at a PARAMETER `V`, the TensorCore's buffer contents when the
  region is entered. At grid point `t` the body reads the row block `t` of `x` (128 rows) and the whole
  flattened weight matrix, and stores their matrix product into the output block: one whole-block store, so the
  output block after the body is that one payload. The proof data say exactly this; the body obligation is the
  body's run at a symbolic point.
-/
import proofs.«142424_j45286135169752_1_alg».proof.Proof.Gen.Kernel.Launch
import proofs.«142424_j45286135169752_1_alg».proof.Proof.Gen.Kernel.Skeleton
import proofs.«142424_j45286135169752_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at point `t`, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S128x1024 := Rect.unit (s := S128x1024) ![0, 0] S128x1024.size inb_S128x1024_S128x1024_0_0
abbrev rT : Rect S1024x1024 := Rect.unit (s := S1024x1024) ![0, 0] S1024x1024.size inb_S1024x1024_S1024x1024_0_0

/-- The output block after the body: the product of the row block and the weight matrix, stored whole. -/
def out0_2 (x0 : Vec F S128x1024 .f32) (x1 : Vec F S1024x1024 .f32) : Vec F S128x1024 .f32 :=
  View.canon [⟨rX, k0_pay1 (View.ld x0 rX) (View.ld x1 rT)⟩]

theorem cover0_2 (p0 : Vec F S128x1024 .f32) (y : S128x1024.Idx) :
    ∃ pc ∈ ([⟨rX, p0⟩] : List (View.Piece (Elt F) S128x1024 .f32)), y ∈ pc.1.set :=
  View.cover_of_tiled [⟨rX, p0⟩] S128x1024.size (by rfl) y

set_option maxHeartbeats 1000000 in
/-- The body on whole staging memrefs: the inputs keep their contents, the output ends at `out0_2` of them. -/
theorem sound_kernel0 (c : Dev nD) (E : Set ℕ) (i : grid0.Coords) (arg1 : Memref sig .tc .vmem S128x1024 .f32) (harg1 : arg1.IsWhole)
    (arg2 : Memref sig .tc .vmem S1024x1024 .f32) (harg2 : arg2.IsWhole) (arg3 : Memref sig .tc .vmem S128x1024 .f32) (harg3 : arg3.IsWhole)
    (x0 : Vec F S128x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the projection pipeline on core `c`: the arrays as the region finds them; after the body at
    point `t` each input's buffer at its block and the output's at the product of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1.lean ====
/-
  The pairwise-distance region (the second pallas_call) at a PARAMETER `V`, the TensorCore's buffer contents when
  the region is entered. The grid is 4 row blocks by 16 column blocks; at point (i, j) the body reads rows block i
  (128 rows) and rows block j (32 rows) of the projected matrix and the 0/1 group matrix, and adds to a scratch
  accumulator the sum over the 32 rows of exp(-(grouped L1 distance)). The accumulator is reset at j = 0 and copied
  to the output block at j = 15. Three control cases: reset-and-add (j = 0), add (0 < j < 15), add-and-copy (j = 15).
-/
import proofs.«142424_j45286135169752_1_alg».proof.Proof.Gen.Kernel.Launch
import proofs.«142424_j45286135169752_1_alg».proof.Proof.Gen.Kernel.Skeleton
import proofs.«142424_j45286135169752_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rA : Rect S128x1024 := Rect.unit (s := S128x1024) ![0, 0] S128x1024.size inb_S128x1024_S128x1024_0_0
abbrev rB : Rect S32x1024 := Rect.unit (s := S32x1024) ![0, 0] S32x1024.size inb_S32x1024_S32x1024_0_0
abbrev rG : Rect S1024x64 := Rect.unit (s := S1024x64) ![0, 0] S1024x64.size inb_S1024x64_S1024x64_0_0
abbrev rO : Rect S128x64 := Rect.unit (s := S128x64) ![0, 0] S128x64.size inb_S128x64_S128x64_0_0

/-- The zero offsets of a whole-block access. -/
theorem hz2 : (![0, 0] : Fin 2 → Nat) = fun _ => 0 := by
  funext a; match a with | ⟨0, _⟩ => rfl | ⟨1, _⟩ => rfl

/-- The first conditional: the column-block coordinate is 0 (the accumulator is reset). -/
abbrev cond1_0 (i : grid1.Coords) : Prop := (Scalar.cmpi .ne (Scalar.extui (Scalar.cmpi .eq (BitVec.ofNat 32 (i 1).val) 0#32)) 0#32) = 1#1
/-- The second conditional: the column-block coordinate is 15 (the accumulator is copied out). -/
abbrev cond1_1 (i : grid1.Coords) : Prop := k1_cond2 i = 1#1

/-- One accumulation step: the accumulator `s` plus the partial sums of the blocks `x0`, `x1` against `x2`. -/
abbrev step1 (x0 : Vec F S128x1024 .f32) (x1 : Vec F S32x1024 .f32) (x2 : Vec F S1024x64 .bf16) (s : Vec F S128x64 .f32) : Vec F S128x64 .f32 :=
  k1_pay2 x0 x1 x2 s

set_option maxHeartbeats 2000000 in
/-- The add case: the inputs keep their contents, the accumulator advances one step, the output buffer is not touched. -/
theorem sound_kernel1_B (c : Dev nD) (E : Set ℕ) (i : grid1.Coords)
    (arg2 : Memref sig .tc .vmem S128x1024 .f32) (harg2 : arg2.IsWhole) (arg3 : Memref sig .tc .vmem S32x1024 .f32) (harg3 : arg3.IsWhole)
    (arg4 : Memref sig .tc .vmem S1024x64 .bf16) (harg4 : arg4.IsWhole) (arg5 : Memref sig .tc .vmem S128x64 .f32) (harg5 : arg5.IsWhole)
    (arg6 : Memref sig .tc .vmem S128x64 .f32) (harg6 : arg6.IsWhole)
    (x0 : Vec F S128x1024 .f32) (x1 : Vec F S32x1024 .f32) (x2 : Vec F S1024x64 .bf16) (K : PUnit → sProp 𝕄)
    (h1 : ¬ cond1_0 i) (h2 : ¬ cond1_1 i) (s : Vec F S128x64 .f32) :
    iprop(owns (c : Thread nD τ) arg2 fullShare x0 ∗ owns (c : Thread nD τ) arg3 fullShare x1 ∗ owns (c : Thread nD τ) arg4 fullShare x2
        ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg6 fullShare (step1 x0 x1 x2 s)) -∗ K ⟨⟩))
      ⊢ wp frame (wpE (defs₀ (F := F)) Variants.none c none) E (cc1__l1_kernel i arg2 harg2 arg3 harg3 arg4 harg4 arg5 harg5 arg6 harg6) K := by
  simp only [cc1__l1_kernel_eq_skeleton]; unfold cc1__l1_kernel_skel
  unfold owns
  iintro ⟨⟨%f0, %hf0, H0⟩, ⟨%f1, %hf1, H1⟩, ⟨%f2, %hf2, H2⟩, ⟨%f6, %hf6, H6⟩, Hk⟩
  subst hf0; subst hf1; subst hf2; subst hf6
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H6
  ipureintro
  rw [View.read_writes_eq_canon _ _ _ (fun y => ⟨_, List.mem_singleton_self _, View.mem_set_unit_zero hz2 inb_S128x64_S128x64_0_0 y⟩),
    View.canon_unit_zero hz2]
  simp only [View.readAt_eq_ld, View.ld_unit_zero (S := S128x1024) hz2, View.ld_unit_zero (S := S32x1024) hz2,
    View.ld_unit_zero (S := S1024x64) hz2, View.ld_unit_zero (S := S128x64) hz2]

set_option maxHeartbeats 2000000 in
/-- The reset case: the accumulator is zeroed, then advances one step from zero. -/
theorem sound_kernel1_A (c : Dev nD) (E : Set ℕ) (i : grid1.Coords)
    (arg2 : Memref sig .tc .vmem S128x1024 .f32) (harg2 : arg2.IsWhole) (arg3 : Memref sig .tc .vmem S32x1024 .f32) (harg3 : arg3.IsWhole)
    (arg4 : Memref sig .tc .vmem S1024x64 .bf16) (harg4 : arg4.IsWhole) (arg5 : Memref sig .tc .vmem S128x64 .f32) (harg5 : arg5.IsWhole)
    (arg6 : Memref sig .tc .vmem S128x64 .f32) (harg6 : arg6.IsWhole)
    (x0 : Vec F S128x1024 .f32) (x1 : Vec F S32x1024 .f32) (x2 : Vec F S1024x64 .bf16) (K : PUnit → sProp 𝕄)
    (h1 : cond1_0 i) (h2 : ¬ cond1_1 i) :
    iprop(owns (c : Thread nD τ) arg2 fullShare x0 ∗ owns (c : Thread nD τ) arg3 fullShare x1 ∗ owns (c : Thread nD τ) arg4 fullShare x2
        ∗ (∃ s, owns (c : Thread nD τ) arg6 fullShare s)
        ∗ (iprop(owns (c : Thread nD τ) arg2 fullShare x0 ∗ owns (c : Thread nD τ) arg3 fullShare x1 ∗ owns (c : Thread nD τ) arg4 fullShare x2
            ∗ owns (c : Thread nD τ) arg6 fullShare (step1 x0 x1 x2 (k1_pay1 (F := F)))) -∗ K ⟨⟩))
      ⊢ wp frame (wpE (defs₀ (F := F)) Variants.none c none) E (cc1__l1_kernel i arg2 harg2 arg3 harg3 arg4 harg4 arg5 harg5 arg6 harg6) K := by
  simp only [cc1__l1_kernel_eq_skeleton]; unfold cc1__l1_kernel_skel
  unfold owns
  iintro ⟨⟨%f0, %hf0, H0⟩, ⟨%f1, %hf1, H1⟩, ⟨%f2, %hf2, H2⟩, ⟨%s, %f6, -, H6⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H6
  ipureintro
  sl_unfold_words
  rw [View.read_writes_eq_canon _ _ _ (fun y => ⟨_, List.mem_cons_self .., View.mem_set_unit_zero hz2 inb_S128x64_S128x64_0_0 y⟩),
    View.canon_cons_unit_zero (S := S128x64) hz2]
  simp only [View.readAt_eq_ld, View.ld_unit_zero (S := S128x1024) hz2, View.ld_unit_zero (S := S32x1024) hz2,
    View.ld_unit_zero (S := S1024x64) hz2, View.ld_unit_zero (S := S128x64) hz2, View.readCov_unit_zero (S := S128x64) _ hz2]

set_option maxHeartbeats 2000000 in
/-- The copy case: the accumulator advances one step and the output buffer receives its new contents. -/
theorem sound_kernel1_C (c : Dev nD) (E : Set ℕ) (i : grid1.Coords)
    (arg2 : Memref sig .tc .vmem S128x1024 .f32) (harg2 : arg2.IsWhole) (arg3 : Memref sig .tc .vmem S32x1024 .f32) (harg3 : arg3.IsWhole)
    (arg4 : Memref sig .tc .vmem S1024x64 .bf16) (harg4 : arg4.IsWhole) (arg5 : Memref sig .tc .vmem S128x64 .f32) (harg5 : arg5.IsWhole)
    (arg6 : Memref sig .tc .vmem S128x64 .f32) (harg6 : arg6.IsWhole)
    (x0 : Vec F S128x1024 .f32) (x1 : Vec F S32x1024 .f32) (x2 : Vec F S1024x64 .bf16) (K : PUnit → sProp 𝕄)
    (h1 : ¬ cond1_0 i) (h2 : cond1_1 i) (s : Vec F S128x64 .f32) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (step1 x0 x1 x2 s) ∗ owns (c : Thread nD τ) arg6 fullShare (step1 x0 x1 x2 s)) -∗ K ⟨⟩))
      ⊢ wp frame (wpE (defs₀ (F := F)) Variants.none c none) E (cc1__l1_kernel i arg2 harg2 arg3 harg3 arg4 harg4 arg5 harg5 arg6 harg6) K := by
  simp only [cc1__l1_kernel_eq_skeleton]; unfold cc1__l1_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (fun y => ⟨_, List.mem_singleton_self _, View.mem_set_unit_zero hz2 inb_S128x64_S128x64_0_0 y⟩),
      View.canon_unit_zero hz2]
    simp only [View.readAt_eq_ld, View.ld_unit_zero (S := S128x1024) hz2, View.ld_unit_zero (S := S32x1024) hz2,
      View.ld_unit_zero (S := S1024x64) hz2, View.ld_unit_zero (S := S128x64) hz2, View.readCov_unit_zero (S := S128x64) _ hz2]
  iexists _; isplitr
  swap; · iexact H6
  ipureintro
  sl_unfold_words
  rw [View.read_writes_eq_canon _ _ _ (fun y => ⟨_, List.mem_singleton_self _, View.mem_set_unit_zero hz2 inb_S128x64_S128x64_0_0 y⟩),
    View.canon_unit_zero hz2]
  simp only [View.readAt_eq_ld, View.ld_unit_zero (S := S128x1024) hz2, View.ld_unit_zero (S := S32x1024) hz2,
    View.ld_unit_zero (S := S1024x64) hz2, View.ld_unit_zero (S := S128x64) hz2]

/-! ## The conditions over the grid, and where the output window is idle -/

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

variable (V : (c : Dev nD) → (b : Ref sig .tc) → Buf (Elt F) ((c : Thread nD τ).loc b))

/-- Window `w`'s block of its array at point `t`, as the region finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator point by point -/

/-- One step at point `t`: the three input blocks there against an accumulator `s`. -/
def stepAt (c : Dev nD) (t : Fin cfg1.N) (s : Vec F S128x64 .f32) : Vec F S128x64 .f32 :=
  step1 (iblk1 V c 0 t) (iblk1 V c 1 t) (iblk1 V c 2 t) s

/-- The accumulator after point `n`: one step from zero where the column block is the first of its row block
    (`n` a multiple of 16), else one step from what the point before left. -/
def accAt (c : Dev nD) : (n : ℕ) → n < cfg1.N → Vec F S128x64 .f32
  | 0, h => stepAt V c ⟨0, h⟩ (k1_pay1 (F := F))
  | n + 1, h => stepAt V c ⟨n + 1, h⟩ (if (n + 1) % 16 = 0 then (k1_pay1 (F := F)) else accAt c n (Nat.lt_of_succ_lt h))

theorem accAt_reset (c : Dev nD) (t : Fin cfg1.N) (h : t.val % 16 = 0) :
    accAt V c t.val t.isLt = stepAt V c t (k1_pay1 (F := F)) := by
  obtain ⟨n, hn⟩ := t
  cases n with
  | zero => rfl
  | succ n => exact congrArg (stepAt V c ⟨n + 1, hn⟩) (if_pos h)

theorem accAt_acc (c : Dev nD) (t : Fin cfg1.N) (h : ¬ t.val % 16 = 0) :
    accAt V c t.val t.isLt = stepAt V c t (accAt V c (t.val - 1) (Nat.lt_of_le_of_lt (Nat.sub_le _ _) t.isLt)) := by
  obtain ⟨n, hn⟩ := t
  cases n with
  | zero => exact absurd (Nat.zero_mod _) h
  | succ n => exact congrArg (stepAt V c ⟨n + 1, hn⟩) (if_neg h)

/-! ## The invariant: the scoped buffers no window stages, the accumulator among them at its named contents -/

abbrev scM : Memref sig .tc .vmem S128x64 .f32 := Memref.whole cc1_scratch0

/-- The first pallas_call's five staging buffers at anything, beside what is said of the accumulator. -/
def restWith (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ S)

theorem PhiA1_eq (c : Dev nD) :
    (Pipeline.ΦA spec1 c : sProp 𝕄) = iprop(restWith c (iprop(∃ d, owns (c : Thread nD τ) scM fullShare d)) ∗ (∃ r, prngReg c r)) := by
  unfold Pipeline.ΦA restWith; rw [scopedRest1_eq]; simp only [scM, owns_whole]; try rfl

def PhiS (c : Dev nD) : (n : ℕ) → n ≤ cfg1.N → sProp 𝕄
  | 0, _ => Pipeline.ΦA spec1 c
  | n + 1, hn => iprop(restWith c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restWith c (owns (c : Thread nD τ) scM fullShare (accAt V c n hn)) ∗ (∃ r, prngReg c r)) := rfl
theorem PhiS_pos (c : Dev nD) (n : ℕ) (h : n ≤ cfg1.N) (hz : n ≠ 0) :
    PhiS V c n h = iprop(restWith c (owns (c : Thread nD τ) scM fullShare (accAt V c (n - 1) (by omega))) ∗ (∃ r, prngReg c r)) := by
  cases n with
  | zero => exact absurd rfl hz
  | succ n => rfl

/-! ## The proof data -/

/-- The proof data of the pairwise-distance pipeline on core `c`. The two windows on the projected matrix hold it
    at the two halves of the full share; the output's buffer after the copy point holds the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => accAt V c t.val t.isLt
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (st1_0 t) fullShare (iblk1 V c 0 t) := by
  unfold Dat.leavesExact; rw [liveAt1_0 t, after1_0]
theorem leaves1_1 (c : Dev nD) (t : Fin cfg1.N) : (dat1 V c).leavesExact 1 t = owns (c : Thread nD τ) (st1_1 t) fullShare (iblk1 V c 1 t) := by
  unfold Dat.leavesExact; rw [liveAt1_1 t, after1_1]
theorem leaves1_2 (c : Dev nD) (t : Fin cfg1.N) : (dat1 V c).leavesExact 2 t = owns (c : Thread nD τ) (st1_2 t) fullShare (iblk1 V c 2 t) := by
  unfold Dat.leavesExact; rw [liveAt1_2 t, after1_2]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 64 := lt_of_lt_of_eq t.isLt (show cfg1.N = 64 from N_1)
  by_cases h0 : t.val % 16 = 0
  · -- the reset case
    have h1 : ¬ t.val % 16 = 15 := by omega
    have hc0 : cond1_0 (grid1.coords t) := (hcond1_0 t).mpr h0
    have hc1 : ¬ cond1_1 (grid1.coords t) := fun h => h1 ((hcond1_1 t).mp h)
    rw [Dat.leavesExact_idle (dat1 V c) 3 t (idleAt1_3 t hc1) (noFlush1_3 t hc1)]
    rw [accAt_reset V c t h0]
    have hΦ : (dat1 V c).Φ t.castSucc ⊢ (iprop(restWith c (iprop(∃ d, owns (c : Thread nD τ) scM fullShare d)) ∗ (∃ r, prngReg c r)) : sProp 𝕄) := by
      rw [PhiS_castSucc V c t]
      by_cases hz : t.val = 0
      · rw [PhiS_zero V c _ _ hz, PhiA1_eq]
      · rw [PhiS_pos V c _ _ hz]; unfold restWith
        iintro ⟨⟨Ha, Hb, Hc, Hd, He, HS⟩, Hg⟩
        isplitr [Hg]
        · isplitl [Ha]; · iexact Ha
          isplitl [Hb]; · iexact Hb
          isplitl [Hc]; · iexact Hc
          isplitl [Hd]; · iexact Hd
          isplitl [He]; · iexact He
          iexists _; iexact HS
        iexact Hg
    iintro ⟨HΦ, Ho, ⟨%d0, H0⟩, ⟨%d1, H1⟩, ⟨%d2, H2⟩, ⟨%d3, H3⟩⟩
    ihave HΦ' := hΦ $$ HΦ
    unfold restWith
    icases HΦ' with ⟨⟨Ha, Hb, Hc, Hd, He, HS⟩, Hg⟩
    iapply (sound_kernel1_A c Set.univ (grid1.coords t) _ _ _ _ _ _ _ _ _ _ (iblk1 V c 0 t) (iblk1 V c 1 t) (iblk1 V c 2 t) _ hc0 hc1)
    isplitl [H0]; · iexact H0
    isplitl [H1]; · iexact H1
    isplitl [H2]; · iexact H2
    isplitl [HS]; · iexact HS
    iintro ⟨H0, H1, H2, HS⟩
    isplitl [Ha Hb Hc Hd He HS Hg]
    · isplitr [Hg]
      · isplitl [Ha]; · iexact Ha
        isplitl [Hb]; · iexact Hb
        isplitl [Hc]; · iexact Hc
        isplitl [Hd]; · iexact Hd
        isplitl [He]; · iexact He
        unfold stepAt; iexact HS
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hc0 : ¬ cond1_0 (grid1.coords t) := fun h => h0 ((hcond1_0 t).mp h)
    rw [accAt_acc V c t h0, PhiS_castSucc V c t, PhiS_pos V c _ _ hz]
    unfold restWith
    by_cases h1 : t.val % 16 = 15
    · -- the copy case
      have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3, accAt_acc V c t h0]
      iintro ⟨⟨⟨Ha, Hb, Hc, Hd, He, HS⟩, Hg⟩, Ho, ⟨%d0, H0⟩, ⟨%d1, H1⟩, ⟨%d2, H2⟩, ⟨%d3, H3⟩⟩
      iapply (sound_kernel1_C c Set.univ (grid1.coords t) _ _ _ _ _ _ _ _ _ _ (iblk1 V c 0 t) (iblk1 V c 1 t) (iblk1 V c 2 t) _ hc0 hc1 _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold stepAt; iexact HS
        iexact Hg
      isplitl [Ho]; · iexact Ho
      isplitl [H0]; · iexact H0
      isplitl [H1]; · iexact H1
      isplitl [H2]; · iexact H2
      unfold stepAt; iexact H3
    · -- the add case
      have hc1 : ¬ cond1_1 (grid1.coords t) := fun h => h1 ((hcond1_1 t).mp h)
      rw [Dat.leavesExact_idle (dat1 V c) 3 t (idleAt1_3 t hc1) (noFlush1_3 t hc1)]
      iintro ⟨⟨⟨Ha, Hb, Hc, Hd, He, HS⟩, Hg⟩, Ho, ⟨%d0, H0⟩, ⟨%d1, H1⟩, ⟨%d2, H2⟩, ⟨%d3, H3⟩⟩
      iapply (sound_kernel1_B c Set.univ (grid1.coords t) _ _ _ _ _ _ _ _ _ _ (iblk1 V c 0 t) (iblk1 V c 1 t) (iblk1 V c 2 t) _ hc0 hc1 _)
      isplitl [H0]; · iexact H0
      isplitl [H1]; · iexact H1
      isplitl [H2]; · iexact H2
      isplitl [HS]; · iexact HS
      iintro ⟨H0, H1, H2, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold stepAt; iexact HS
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl,
    PhiS_pos V c _ _ ht, PhiA1_eq]
  unfold restWith
  iintro ⟨⟨Ha, Hb, Hc, Hd, He, HS⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS
  iexact Hg

end Cert.Kernel.Hand

end
-- ==== Proof.Kernel.Run.lean ====
/-
  The whole run of @main: the buffers' contents at each boundary between host stretches and kernel regions, the two
  regions as segments of the launch, and the run itself. Every weakly fair execution terminates, and at the end
  every buffer that outlives the kernels holds the last boundary's contents: the arguments as launched, the result
  the concatenation the last host operation makes of them and of what the second region left.
  The first region's arrays are three different buffers. The second region reads the projected matrix through two
  windows: the two windows hold it at the two halves of its full share, split at the region's entry and joined
  again at its exit.
-/
import proofs.«142424_j45286135169752_1_alg».proof.Proof.Kernel.Region0
import proofs.«142424_j45286135169752_1_alg».proof.Proof.Kernel.Region1
import proofs.«142424_j45286135169752_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

abbrev W0 : Dev nD → Valuation τ sig (Elt F) := fun c b => m (c, b)
abbrev W1 : Dev nD → Valuation τ sig (Elt F) := fun c => StableHlo.after hostOps0 (W0 m c)
/-- What the first region finds. -/
abbrev VR0 : (c : Dev nD) → (b : Ref sig .tc) → Buf (Elt F) ((c : Thread nD τ).loc b) := fun c b => W1 m c b
/-- At the first region's exit: its output array at what the write-backs leave, every other buffer as entered. -/
def W2 (c : Dev nD) : Valuation τ sig (Elt F) :=
  Pipeline.withArrays spec0 c (W1 m c) fun w => (dat0 (VR0 m) c).arrAt w cfg0.N
theorem W2_arr (c : Dev nD) (w : Fin cfg0.W) :
    W2 m c (Proc.devRef .tc (Pipeline.arrRef spec0 w)) = (dat0 (VR0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VX0 : (c : Dev nD) → (b : Ref sig .tc) → Buf (Elt F) ((c : Thread nD τ).loc b) := fun c b => W2 m c b
theorem hF0 (c : Dev nD) (w : Fin cfg0.W) : (dat0 (VR0 m) c).arrAt w cfg0.N = VX0 m c (Pipeline.arrRef spec0 w) :=
  (W2_arr m c w).symm
theorem hrest0 (c : Dev nD) : ∀ b, b ∉ Finset.univ.image (Pipeline.arrRef spec0) → VX0 m c b = VR0 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
/-- What the second region finds. -/
abbrev VR1 : (c : Dev nD) → (b : Ref sig .tc) → Buf (Elt F) ((c : Thread nD τ).loc b) := fun c b => W5 m c b
/-- At the second region's exit: its output array at what the write-backs leave, every other buffer as entered. -/
def W6 (c : Dev nD) : Valuation τ sig (Elt F) :=
  Function.update (W5 m c) (Proc.devRef .tc main_v11) ((dat1 (VR1 m) c).arrAt 3 cfg1.N)
abbrev VX1 : (c : Dev nD) → (b : Ref sig .tc) → Buf (Elt F) ((c : Thread nD τ).loc b) := fun c b => W6 m c b
abbrev W7 : Dev nD → Valuation τ sig (Elt F) := fun c => StableHlo.after hostOps2 (W6 m c)

theorem W6_out (c : Dev nD) : W6 m c (Proc.devRef .tc main_v11) = (dat1 (VR1 m) c).arrAt 3 cfg1.N := by
  unfold W6; exact Function.update_self ..
theorem W6_of_ne (c : Dev nD) (b : Ref sig .tc) (hb : b ≠ main_v11) : W6 m c (Proc.devRef .tc b) = W5 m c (Proc.devRef .tc b) := by
  unfold W6; exact Function.update_of_ne (StableHlo.devRef_ne_of_ne hb) ..

/-! ## The proof data family and the thread state -/

def pdatsH : (p : Fin 2) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR1 m) c
abbrev 𝒱₀ : Variants := Variants.none
abbrev Lz : GSem nD τ sig → Finset Unit := fun _ => ∅
abbrev lvz : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tfin (c : Dev nD) : sProp 𝕄 := iprop(StableHlo.held (c : Thread nD τ) (Pipeline.ucRefs τ sig) (W7 m c) ∗ ∃ r, prngReg c r)

/-! ## The second region's arrays out of the buffers and back -/

/-- The three buffers behind the second region's four windows. -/
theorem arrImage1 : Finset.univ.image (Pipeline.arrRef spec1) = ({main_v1, main_v10, main_v11} : Finset (Ref sig .tc)) := by decide

/-- The region's arrays, window by window, each at its share (the arrays are whole buffers). -/
theorem arrays1_eq (c : Dev nD) (dat : Dat τ (Elt F) Unit ℕ (UR sig nD τ) ℕ cfg1 c)
    (G : (w : Fin cfg1.W) → Buf (Elt F) ((cfg1.win w).arr.view.loc (c.tc : Thread nD τ))) :
    dat.arrays G = bigSep Finset.univ fun w => (((c.tc : Thread nD τ).loc (Pipeline.arrRef spec1 w)) ↦{dat.share w} G w : sProp 𝕄) := by
  unfold Dat.arrays
  exact bigSep_congr fun w _ => by rw [(arr_whole1 w).set_eq_univ]

theorem share1_0 (c : Dev nD) : (dat1 (VR1 m) c).share 0 = fullShare.left := rfl
theorem share1_1 (c : Dev nD) : (dat1 (VR1 m) c).share 1 = fullShare.right := rfl
theorem share1_2 (c : Dev nD) : (dat1 (VR1 m) c).share 2 = fullShare := rfl
theorem share1_3 (c : Dev nD) : (dat1 (VR1 m) c).share 3 = fullShare := rfl

/-- ENTRY: the buffers at the second region's entry contents give its arrays (the projected matrix at two half
    shares, one per window on it) and the rest. -/
theorem entry1 (c : Dev nD) :
    (StableHlo.held (c : Thread nD τ) (Pipeline.ucRefs τ sig) (W5 m c) : sProp 𝕄)
      ⊢ iprop((dat1 (VR1 m) c).arrays ((dat1 (VR1 m) c).arrAt · 0) ∗ Pipeline.unscopedRest (Ix := Unit) (Name := ℕ) (U := UR sig nD τ) (Lvl := ℕ) spec1 c (VR1 m c)) := by
  rw [← Pipeline.unscopedBufs_held (Ix := Unit) (Name := ℕ) (U := UR sig nD τ) (Lvl := ℕ) c (W5 m c),
    show (unscopedBufs c (fun b => W5 m c b) : sProp 𝕄) = _ from Pipeline.unscopedBufs_split₀ cfgs 1 winFacts₀1.arr_unscoped c (VR1 m c)]
  refine sep_mono ?_ .rfl
  rw [arrays1_eq, bigSep_W1, share1_0, share1_1, share1_2, share1_3]
  unfold Pipeline.arrBufs
  rw [show Finset.univ.image (Pipeline.arrRef (cfgs 1).spec) = ({main_v1, main_v10, main_v11} : Finset (Ref sig .tc)) from arrImage1,
    bigSep_insert (by decide), bigSep_insert (by decide), bigSep_singleton]
  rw [show (dat1 (VR1 m) c).arrAt 0 0 = VR1 m c main_v1 from rfl, show (dat1 (VR1 m) c).arrAt 1 0 = VR1 m c main_v1 from rfl,
    show (dat1 (VR1 m) c).arrAt 2 0 = VR1 m c main_v10 from rfl, show (dat1 (VR1 m) c).arrAt 3 0 = VR1 m c main_v11 from rfl]
  show (iprop((((c.tc : Thread nD τ).loc main_v1) ↦{fullShare} VR1 m c main_v1) ∗ (((c.tc : Thread nD τ).loc main_v10) ↦{fullShare} VR1 m c main_v10) ∗ (((c.tc : Thread nD τ).loc main_v11) ↦{fullShare} VR1 m c main_v11)) : sProp 𝕄) ⊢ _
  iintro ⟨H1, H10, H11⟩
  ihave H1' := (pointsTo_share (PosShare.mem_left_op_right fullShare)).1 $$ H1
  icases H1' with ⟨Ha, Hb⟩
  isplitl [Ha]; · iexact Ha
  isplitl [Hb]; · iexact Hb
  isplitl [H10]; · iexact H10
  iexact H11

theorem hrest1 (c : Dev nD) : ∀ b, b ∉ Finset.univ.image (Pipeline.arrRef spec1) → VX1 m c b = VR1 m c b :=
  fun b hb => W6_of_ne m c b fun e => hb (by rw [arrImage1, e]; decide)

/-- EXIT: the arrays at their final contents (the two half shares joined) and the rest are the buffers at the
    second region's exit contents. -/
theorem exit1 (c : Dev nD) :
    (iprop((dat1 (VR1 m) c).arrays ((dat1 (VR1 m) c).arrAt · cfg1.N) ∗ Pipeline.unscopedRest (Ix := Unit) (Name := ℕ) (U := UR sig nD τ) (Lvl := ℕ) spec1 c (VR1 m c)) : sProp 𝕄)
      ⊢ StableHlo.held (c : Thread nD τ) (Pipeline.ucRefs τ sig) (W6 m c) := by
  rw [← Pipeline.unscopedBufs_held (Ix := Unit) (Name := ℕ) (U := UR sig nD τ) (Lvl := ℕ) c (W6 m c),
    show (unscopedBufs c (fun b => W6 m c b) : sProp 𝕄) = _ from Pipeline.unscopedBufs_split₀ cfgs 1 winFacts₀1.arr_unscoped c (VX1 m c)]
  refine sep_mono ?_ (Entails.of_eq ?_)
  · rw [arrays1_eq, bigSep_W1, share1_0, share1_1, share1_2, share1_3]
    unfold Pipeline.arrBufs
    rw [show Finset.univ.image (Pipeline.arrRef (cfgs 1).spec) = ({main_v1, main_v10, main_v11} : Finset (Ref sig .tc)) from arrImage1,
    bigSep_insert (by decide), bigSep_insert (by decide), bigSep_singleton]
    have e0 : (dat1 (VR1 m) c).arrAt 0 cfg1.N = VX1 m c main_v1 :=
      ((dat1 (VR1 m) c).arrAt_in 0 rfl _).trans ((A_eq1 (VR1 m) c 0).trans (W6_of_ne m c main_v1 (by decide)).symm)
    have e1 : (dat1 (VR1 m) c).arrAt 1 cfg1.N = VX1 m c main_v1 :=
      ((dat1 (VR1 m) c).arrAt_in 1 rfl _).trans ((A_eq1 (VR1 m) c 1).trans (W6_of_ne m c main_v1 (by decide)).symm)
    have e2 : (dat1 (VR1 m) c).arrAt 2 cfg1.N = VX1 m c main_v10 :=
      ((dat1 (VR1 m) c).arrAt_in 2 rfl _).trans ((A_eq1 (VR1 m) c 2).trans (W6_of_ne m c main_v10 (by decide)).symm)
    have e3 : (dat1 (VR1 m) c).arrAt 3 cfg1.N = VX1 m c main_v11 := (W6_out m c).symm
    rw [e0, e1, e2, e3]
    show _ ⊢ (iprop((((c.tc : Thread nD τ).loc main_v1) ↦{fullShare} VX1 m c main_v1) ∗ (((c.tc : Thread nD τ).loc main_v10) ↦{fullShare} VX1 m c main_v10) ∗ (((c.tc : Thread nD τ).loc main_v11) ↦{fullShare} VX1 m c main_v11)) : sProp 𝕄)
    iintro ⟨Ha, Hb, H10, H11⟩
    ihave H1 := (pointsTo_share (PosShare.mem_left_op_right fullShare)).2 $$ [Ha Hb]
    · isplitl [Ha] <;> iassumption
    isplitl [H1]; · iexact H1
    isplitl [H10]; · iexact H10
    iexact H11
  · unfold Pipeline.unscopedRest
    exact bigSep_congr fun b hb => by rw [hrest1 m c b (Finset.mem_sdiff.mp hb).2]

/-! ## The regions as segments -/

set_option backward.isDefEq.respectTransparency.types false in
def regH0 : Pipeline.RegionSeg (pcfgs (F := F)) adm (pdatsH m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (VR0 m c) (VX0 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regH1 : Pipeline.RegionSeg (pcfgs (F := F)) adm (pdatsH m) () defs₀ 𝒱₀ Lz lvz 1 where
  win := winFacts₀1
  block_pos := block_pos1
  stage_whole := stage_whole1
  K := PEmpty
  osem k := k.elim
  ho := Pipeline.OwnSemFacts.none _
  hbody c := (body_obligation1 (VR1 m) c).loose
  hwaits := Pipeline.hwaits_of_owed_zero _ _ _ _ Lz lvz 1 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VR1 m) c)
    unfold Pipeline.ΦA
    iintro ⟨Hp, -, Hr⟩
    isplitl [Hr]; · iexact Hr
    iexact Hp
  hout c := by
    rw [Pipeline.ownSems0_none]
    refine (hout1 (VR1 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · have hx : (iprop((pdatsH m 1 c).arrays ((pdatsH m 1 c).arrAt · (Pipeline.pin (pcfgs (F := F)) adm 1).N)
          ∗ Pipeline.unscopedRest (Ix := Unit) (Name := ℕ) (U := UR sig nD τ) (Lvl := ℕ) spec1 c (VR1 m c)) : sProp 𝕄)
          ⊢ StableHlo.held (c : Thread nD τ) (Pipeline.ucRefs τ sig) (W6 m c) := exit1 m c
      iapply hx; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) adm (pdatsH m) () defs₀ 𝒱₀ Lz lvz) :=
  [ .host (hsegH hostOps0 hostOps0_sub hostOps0_fresh (W0 m)),
    .region (regH0 m),
    .host (hsegH hostOps1 hostOps1_sub hostOps1_fresh (W2 m)),
    .host (hsegH hostOps1_1 hostOps1_1_sub hostOps1_1_fresh (W3 m)),
    .host (hsegH hostOps1_2 hostOps1_2_sub hostOps1_2_fresh (W4 m)),
    .region (regH1 m),
    .host (hsegH hostOps2 hostOps2_sub hostOps2_fresh (W6 m)) ]

theorem main_runH (c : Dev nD) : main (F := F) c = Pipeline.Seg.run (segsH m) := (main_chain c).trans (by chain_rfl)

set_option backward.isDefEq.respectTransparency.types false in
/-- THE RUN: from any memory with zero counters every weakly fair execution of @main terminates, nothing faulting,
    and every buffer that outlives the kernels ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdatsH m) () cellOf_inj emb₁ defs₀ 𝒱₀ Lz lvz m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tfin m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m c) ∗ Rr c) : sProp 𝕄)
        ⊢ iprop(Tfin m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The arguments end as launched -/

/-- The first argument is an input array of the first region, read and never written; no host operation writes it. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (VR0 m) c).arrAt_in 0 rfl _).trans (A_eq0 (VR0 m) c 0))
    _ = W0 m c (Proc.devRef .tc main_arg0) := StableHlo.after_of_writes_sub hostOps0 _ hostOps0_writes (by decide)
    _ = m ((c : Thread nD τ).loc main_arg0) := rfl

/-- The second argument is read by the first host operation only; no region stages it and nothing writes it. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- THE FRAME: every weakly fair execution terminates, nothing faulting, and the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_arg0 (by decide))).trans (W7_main_arg0 m c),
       (h c _ (mem_uc main_arg1 (by decide))).trans (W7_main_arg1 m c)⟩)
    (run_all m ρ)

end Cert.Kernel.Hand

end
-- ==== Proof.KernelIdeal.Region0.lean ====
/-
  The projection region (the first pallas_call) at a PARAMETER `V`, the TensorCore's buffer contents when the
  region is entered. At grid point `t` the body reads the row block `t` of `x` (128 rows) and the whole
  flattened weight matrix, and stores their matrix product into the output block: one whole-block store, so the
  output block after the body is that one payload. The proof data say exactly this; the body obligation is the
  body's run at a symbolic point.
-/
import proofs.«142424_j45286135169752_1_alg».proof.Proof.Gen.KernelIdeal.Launch
import proofs.«142424_j45286135169752_1_alg».proof.Proof.Gen.KernelIdeal.Skeleton
import proofs.«142424_j45286135169752_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at point `t`, as the region finds the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rX : Rect S128x1024 := Rect.unit (s := S128x1024) ![0, 0] S128x1024.size inb_S128x1024_S128x1024_0_0
abbrev rT : Rect S1024x1024 := Rect.unit (s := S1024x1024) ![0, 0] S1024x1024.size inb_S1024x1024_S1024x1024_0_0

/-- The output block after the body: the product of the row block and the weight matrix, stored whole. -/
def out0_2 (x0 : Vec F S128x1024 .f32) (x1 : Vec F S1024x1024 .f32) : Vec F S128x1024 .f32 :=
  View.canon [⟨rX, k0_pay1 (View.ld x0 rX) (View.ld x1 rT)⟩]

theorem cover0_2 (p0 : Vec F S128x1024 .f32) (y : S128x1024.Idx) :
    ∃ pc ∈ ([⟨rX, p0⟩] : List (View.Piece (Elt F) S128x1024 .f32)), y ∈ pc.1.set :=
  View.cover_of_tiled [⟨rX, p0⟩] S128x1024.size (by rfl) y

set_option maxHeartbeats 1000000 in
/-- The body on whole staging memrefs: the inputs keep their contents, the output ends at `out0_2` of them. -/
theorem sound_kernel0 (c : Dev nD) (E : Set ℕ) (i : grid0.Coords) (arg1 : Memref sig .tc .vmem S128x1024 .f32) (harg1 : arg1.IsWhole)
    (arg2 : Memref sig .tc .vmem S1024x1024 .f32) (harg2 : arg2.IsWhole) (arg3 : Memref sig .tc .vmem S128x1024 .f32) (harg3 : arg3.IsWhole)
    (x0 : Vec F S128x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the projection pipeline on core `c`: the arrays as the region finds them; after the body at
    point `t` each input's buffer at its block and the output's at the product of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1.lean ====
/-
  The pairwise-distance region (the second pallas_call) at a PARAMETER `V`, the TensorCore's buffer contents when
  the region is entered. The grid is 4 row blocks by 16 column blocks; at point (i, j) the body reads rows block i
  (128 rows) and rows block j (32 rows) of the projected matrix and the 0/1 group matrix, and adds to a scratch
  accumulator the sum over the 32 rows of exp(-(grouped L1 distance)). The accumulator is reset at j = 0 and copied
  to the output block at j = 15. Three control cases: reset-and-add (j = 0), add (0 < j < 15), add-and-copy (j = 15).
-/
import proofs.«142424_j45286135169752_1_alg».proof.Proof.Gen.KernelIdeal.Launch
import proofs.«142424_j45286135169752_1_alg».proof.Proof.Gen.KernelIdeal.Skeleton
import proofs.«142424_j45286135169752_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev rA : Rect S128x1024 := Rect.unit (s := S128x1024) ![0, 0] S128x1024.size inb_S128x1024_S128x1024_0_0
abbrev rB : Rect S32x1024 := Rect.unit (s := S32x1024) ![0, 0] S32x1024.size inb_S32x1024_S32x1024_0_0
abbrev rG : Rect S1024x64 := Rect.unit (s := S1024x64) ![0, 0] S1024x64.size inb_S1024x64_S1024x64_0_0
abbrev rO : Rect S128x64 := Rect.unit (s := S128x64) ![0, 0] S128x64.size inb_S128x64_S128x64_0_0

/-- The zero offsets of a whole-block access. -/
theorem hz2 : (![0, 0] : Fin 2 → Nat) = fun _ => 0 := by
  funext a; match a with | ⟨0, _⟩ => rfl | ⟨1, _⟩ => rfl

/-- The first conditional: the column-block coordinate is 0 (the accumulator is reset). -/
abbrev cond1_0 (i : grid1.Coords) : Prop := (Scalar.cmpi .ne (Scalar.extui (Scalar.cmpi .eq (BitVec.ofNat 32 (i 1).val) 0#32)) 0#32) = 1#1
/-- The second conditional: the column-block coordinate is 15 (the accumulator is copied out). -/
abbrev cond1_1 (i : grid1.Coords) : Prop := k1_cond2 i = 1#1

/-- One accumulation step: the accumulator `s` plus the partial sums of the blocks `x0`, `x1` against `x2`. -/
abbrev step1 (x0 : Vec F S128x1024 .f32) (x1 : Vec F S32x1024 .f32) (x2 : Vec F S1024x64 .bf16) (s : Vec F S128x64 .f32) : Vec F S128x64 .f32 :=
  k1_pay2 x0 x1 x2 s

set_option maxHeartbeats 2000000 in
/-- The add case: the inputs keep their contents, the accumulator advances one step, the output buffer is not touched. -/
theorem sound_kernel1_B (c : Dev nD) (E : Set ℕ) (i : grid1.Coords)
    (arg2 : Memref sig .tc .vmem S128x1024 .f32) (harg2 : arg2.IsWhole) (arg3 : Memref sig .tc .vmem S32x1024 .f32) (harg3 : arg3.IsWhole)
    (arg4 : Memref sig .tc .vmem S1024x64 .bf16) (harg4 : arg4.IsWhole) (arg5 : Memref sig .tc .vmem S128x64 .f32) (harg5 : arg5.IsWhole)
    (arg6 : Memref sig .tc .vmem S128x64 .f32) (harg6 : arg6.IsWhole)
    (x0 : Vec F S128x1024 .f32) (x1 : Vec F S32x1024 .f32) (x2 : Vec F S1024x64 .bf16) (K : PUnit → sProp 𝕄)
    (h1 : ¬ cond1_0 i) (h2 : ¬ cond1_1 i) (s : Vec F S128x64 .f32) :
    iprop(owns (c : Thread nD τ) arg2 fullShare x0 ∗ owns (c : Thread nD τ) arg3 fullShare x1 ∗ owns (c : Thread nD τ) arg4 fullShare x2
        ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg6 fullShare (step1 x0 x1 x2 s)) -∗ K ⟨⟩))
      ⊢ wp frame (wpE (defs₀ (F := F)) Variants.none c none) E (cc1__l1_kernel i arg2 harg2 arg3 harg3 arg4 harg4 arg5 harg5 arg6 harg6) K := by
  simp only [cc1__l1_kernel_eq_skeleton]; unfold cc1__l1_kernel_skel
  unfold owns
  iintro ⟨⟨%f0, %hf0, H0⟩, ⟨%f1, %hf1, H1⟩, ⟨%f2, %hf2, H2⟩, ⟨%f6, %hf6, H6⟩, Hk⟩
  subst hf0; subst hf1; subst hf2; subst hf6
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H6
  ipureintro
  rw [View.read_writes_eq_canon _ _ _ (fun y => ⟨_, List.mem_singleton_self _, View.mem_set_unit_zero hz2 inb_S128x64_S128x64_0_0 y⟩),
    View.canon_unit_zero hz2]
  simp only [View.readAt_eq_ld, View.ld_unit_zero (S := S128x1024) hz2, View.ld_unit_zero (S := S32x1024) hz2,
    View.ld_unit_zero (S := S1024x64) hz2, View.ld_unit_zero (S := S128x64) hz2]

set_option maxHeartbeats 2000000 in
/-- The reset case: the accumulator is zeroed, then advances one step from zero. -/
theorem sound_kernel1_A (c : Dev nD) (E : Set ℕ) (i : grid1.Coords)
    (arg2 : Memref sig .tc .vmem S128x1024 .f32) (harg2 : arg2.IsWhole) (arg3 : Memref sig .tc .vmem S32x1024 .f32) (harg3 : arg3.IsWhole)
    (arg4 : Memref sig .tc .vmem S1024x64 .bf16) (harg4 : arg4.IsWhole) (arg5 : Memref sig .tc .vmem S128x64 .f32) (harg5 : arg5.IsWhole)
    (arg6 : Memref sig .tc .vmem S128x64 .f32) (harg6 : arg6.IsWhole)
    (x0 : Vec F S128x1024 .f32) (x1 : Vec F S32x1024 .f32) (x2 : Vec F S1024x64 .bf16) (K : PUnit → sProp 𝕄)
    (h1 : cond1_0 i) (h2 : ¬ cond1_1 i) :
    iprop(owns (c : Thread nD τ) arg2 fullShare x0 ∗ owns (c : Thread nD τ) arg3 fullShare x1 ∗ owns (c : Thread nD τ) arg4 fullShare x2
        ∗ (∃ s, owns (c : Thread nD τ) arg6 fullShare s)
        ∗ (iprop(owns (c : Thread nD τ) arg2 fullShare x0 ∗ owns (c : Thread nD τ) arg3 fullShare x1 ∗ owns (c : Thread nD τ) arg4 fullShare x2
            ∗ owns (c : Thread nD τ) arg6 fullShare (step1 x0 x1 x2 (k1_pay1 (F := F)))) -∗ K ⟨⟩))
      ⊢ wp frame (wpE (defs₀ (F := F)) Variants.none c none) E (cc1__l1_kernel i arg2 harg2 arg3 harg3 arg4 harg4 arg5 harg5 arg6 harg6) K := by
  simp only [cc1__l1_kernel_eq_skeleton]; unfold cc1__l1_kernel_skel
  unfold owns
  iintro ⟨⟨%f0, %hf0, H0⟩, ⟨%f1, %hf1, H1⟩, ⟨%f2, %hf2, H2⟩, ⟨%s, %f6, -, H6⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H6
  ipureintro
  sl_unfold_words
  rw [View.read_writes_eq_canon _ _ _ (fun y => ⟨_, List.mem_cons_self .., View.mem_set_unit_zero hz2 inb_S128x64_S128x64_0_0 y⟩),
    View.canon_cons_unit_zero (S := S128x64) hz2]
  simp only [View.readAt_eq_ld, View.ld_unit_zero (S := S128x1024) hz2, View.ld_unit_zero (S := S32x1024) hz2,
    View.ld_unit_zero (S := S1024x64) hz2, View.ld_unit_zero (S := S128x64) hz2, View.readCov_unit_zero (S := S128x64) _ hz2]

set_option maxHeartbeats 2000000 in
/-- The copy case: the accumulator advances one step and the output buffer receives its new contents. -/
theorem sound_kernel1_C (c : Dev nD) (E : Set ℕ) (i : grid1.Coords)
    (arg2 : Memref sig .tc .vmem S128x1024 .f32) (harg2 : arg2.IsWhole) (arg3 : Memref sig .tc .vmem S32x1024 .f32) (harg3 : arg3.IsWhole)
    (arg4 : Memref sig .tc .vmem S1024x64 .bf16) (harg4 : arg4.IsWhole) (arg5 : Memref sig .tc .vmem S128x64 .f32) (harg5 : arg5.IsWhole)
    (arg6 : Memref sig .tc .vmem S128x64 .f32) (harg6 : arg6.IsWhole)
    (x0 : Vec F S128x1024 .f32) (x1 : Vec F S32x1024 .f32) (x2 : Vec F S1024x64 .bf16) (K : PUnit → sProp 𝕄)
    (h1 : ¬ cond1_0 i) (h2 : cond1_1 i) (s : Vec F S128x64 .f32) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare s
        ∗ (iprop(owns (c : Thread nD τ) arg2 fullShare x0 ∗ owns (c : Thread nD τ) arg3 fullShare x1 ∗ owns (c : Thread nD τ) arg4 fullShare x2
            ∗ owns (c : Thread nD τ) arg5 fullShare (step1 x0 x1 x2 s) ∗ owns (c : Thread nD τ) arg6 fullShare (step1 x0 x1 x2 s)) -∗ K ⟨⟩))
      ⊢ wp frame (wpE (defs₀ (F := F)) Variants.none c none) E (cc1__l1_kernel i arg2 harg2 arg3 harg3 arg4 harg4 arg5 harg5 arg6 harg6) K := by
  simp only [cc1__l1_kernel_eq_skeleton]; unfold cc1__l1_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0; subst hf1; subst hf2; subst hf6
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_words
    rw [View.read_writes_eq_canon _ _ _ (fun y => ⟨_, List.mem_singleton_self _, View.mem_set_unit_zero hz2 inb_S128x64_S128x64_0_0 y⟩),
      View.canon_unit_zero hz2]
    simp only [View.readAt_eq_ld, View.ld_unit_zero (S := S128x1024) hz2, View.ld_unit_zero (S := S32x1024) hz2,
      View.ld_unit_zero (S := S1024x64) hz2, View.ld_unit_zero (S := S128x64) hz2, View.readCov_unit_zero (S := S128x64) _ hz2]
  iexists _; isplitr
  swap; · iexact H6
  ipureintro
  sl_unfold_words
  rw [View.read_writes_eq_canon _ _ _ (fun y => ⟨_, List.mem_singleton_self _, View.mem_set_unit_zero hz2 inb_S128x64_S128x64_0_0 y⟩),
    View.canon_unit_zero hz2]
  simp only [View.readAt_eq_ld, View.ld_unit_zero (S := S128x1024) hz2, View.ld_unit_zero (S := S32x1024) hz2,
    View.ld_unit_zero (S := S1024x64) hz2, View.ld_unit_zero (S := S128x64) hz2]

/-! ## The conditions over the grid, and where the output window is idle -/

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

variable (V : (c : Dev nD) → (b : Ref sig .tc) → Buf (Elt F) ((c : Thread nD τ).loc b))

/-- Window `w`'s block of its array at point `t`, as the region finds the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulator point by point -/

/-- One step at point `t`: the three input blocks there against an accumulator `s`. -/
def stepAt (c : Dev nD) (t : Fin cfg1.N) (s : Vec F S128x64 .f32) : Vec F S128x64 .f32 :=
  step1 (iblk1 V c 0 t) (iblk1 V c 1 t) (iblk1 V c 2 t) s

/-- The accumulator after point `n`: one step from zero where the column block is the first of its row block
    (`n` a multiple of 16), else one step from what the point before left. -/
def accAt (c : Dev nD) : (n : ℕ) → n < cfg1.N → Vec F S128x64 .f32
  | 0, h => stepAt V c ⟨0, h⟩ (k1_pay1 (F := F))
  | n + 1, h => stepAt V c ⟨n + 1, h⟩ (if (n + 1) % 16 = 0 then (k1_pay1 (F := F)) else accAt c n (Nat.lt_of_succ_lt h))

theorem accAt_reset (c : Dev nD) (t : Fin cfg1.N) (h : t.val % 16 = 0) :
    accAt V c t.val t.isLt = stepAt V c t (k1_pay1 (F := F)) := by
  obtain ⟨n, hn⟩ := t
  cases n with
  | zero => rfl
  | succ n => exact congrArg (stepAt V c ⟨n + 1, hn⟩) (if_pos h)

theorem accAt_acc (c : Dev nD) (t : Fin cfg1.N) (h : ¬ t.val % 16 = 0) :
    accAt V c t.val t.isLt = stepAt V c t (accAt V c (t.val - 1) (Nat.lt_of_le_of_lt (Nat.sub_le _ _) t.isLt)) := by
  obtain ⟨n, hn⟩ := t
  cases n with
  | zero => exact absurd (Nat.zero_mod _) h
  | succ n => exact congrArg (stepAt V c ⟨n + 1, hn⟩) (if_neg h)

/-! ## The invariant: the scoped buffers no window stages, the accumulator among them at its named contents -/

abbrev scM : Memref sig .tc .vmem S128x64 .f32 := Memref.whole cc1_scratch0

/-- The first pallas_call's five staging buffers at anything, beside what is said of the accumulator. -/
def restWith (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ S)

theorem PhiA1_eq (c : Dev nD) :
    (Pipeline.ΦA spec1 c : sProp 𝕄) = iprop(restWith c (iprop(∃ d, owns (c : Thread nD τ) scM fullShare d)) ∗ (∃ r, prngReg c r)) := by
  unfold Pipeline.ΦA restWith; rw [scopedRest1_eq]; simp only [scM, owns_whole]; try rfl

def PhiS (c : Dev nD) : (n : ℕ) → n ≤ cfg1.N → sProp 𝕄
  | 0, _ => Pipeline.ΦA spec1 c
  | n + 1, hn => iprop(restWith c (owns (c : Thread nD τ) scM fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restWith c (owns (c : Thread nD τ) scM fullShare (accAt V c n hn)) ∗ (∃ r, prngReg c r)) := rfl
theorem PhiS_pos (c : Dev nD) (n : ℕ) (h : n ≤ cfg1.N) (hz : n ≠ 0) :
    PhiS V c n h = iprop(restWith c (owns (c : Thread nD τ) scM fullShare (accAt V c (n - 1) (by omega))) ∗ (∃ r, prngReg c r)) := by
  cases n with
  | zero => exact absurd rfl hz
  | succ n => rfl

/-! ## The proof data -/

/-- The proof data of the pairwise-distance pipeline on core `c`. The two windows on the projected matrix hold it
    at the two halves of the full share; the output's buffer after the copy point holds the accumulator. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => accAt V c t.val t.isLt
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (st1_0 t) fullShare (iblk1 V c 0 t) := by
  unfold Dat.leavesExact; rw [liveAt1_0 t, after1_0]
theorem leaves1_1 (c : Dev nD) (t : Fin cfg1.N) : (dat1 V c).leavesExact 1 t = owns (c : Thread nD τ) (st1_1 t) fullShare (iblk1 V c 1 t) := by
  unfold Dat.leavesExact; rw [liveAt1_1 t, after1_1]
theorem leaves1_2 (c : Dev nD) (t : Fin cfg1.N) : (dat1 V c).leavesExact 2 t = owns (c : Thread nD τ) (st1_2 t) fullShare (iblk1 V c 2 t) := by
  unfold Dat.leavesExact; rw [liveAt1_2 t, after1_2]

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 64 := lt_of_lt_of_eq t.isLt (show cfg1.N = 64 from N_1)
  by_cases h0 : t.val % 16 = 0
  · -- the reset case
    have h1 : ¬ t.val % 16 = 15 := by omega
    have hc0 : cond1_0 (grid1.coords t) := (hcond1_0 t).mpr h0
    have hc1 : ¬ cond1_1 (grid1.coords t) := fun h => h1 ((hcond1_1 t).mp h)
    rw [Dat.leavesExact_idle (dat1 V c) 3 t (idleAt1_3 t hc1) (noFlush1_3 t hc1)]
    rw [accAt_reset V c t h0]
    have hΦ : (dat1 V c).Φ t.castSucc ⊢ (iprop(restWith c (iprop(∃ d, owns (c : Thread nD τ) scM fullShare d)) ∗ (∃ r, prngReg c r)) : sProp 𝕄) := by
      rw [PhiS_castSucc V c t]
      by_cases hz : t.val = 0
      · rw [PhiS_zero V c _ _ hz, PhiA1_eq]
      · rw [PhiS_pos V c _ _ hz]; unfold restWith
        iintro ⟨⟨Ha, Hb, Hc, Hd, He, HS⟩, Hg⟩
        isplitr [Hg]
        · isplitl [Ha]; · iexact Ha
          isplitl [Hb]; · iexact Hb
          isplitl [Hc]; · iexact Hc
          isplitl [Hd]; · iexact Hd
          isplitl [He]; · iexact He
          iexists _; iexact HS
        iexact Hg
    iintro ⟨HΦ, Ho, ⟨%d0, H0⟩, ⟨%d1, H1⟩, ⟨%d2, H2⟩, ⟨%d3, H3⟩⟩
    ihave HΦ' := hΦ $$ HΦ
    unfold restWith
    icases HΦ' with ⟨⟨Ha, Hb, Hc, Hd, He, HS⟩, Hg⟩
    iapply (sound_kernel1_A c Set.univ (grid1.coords t) _ _ _ _ _ _ _ _ _ _ (iblk1 V c 0 t) (iblk1 V c 1 t) (iblk1 V c 2 t) _ hc0 hc1)
    isplitl [H0]; · iexact H0
    isplitl [H1]; · iexact H1
    isplitl [H2]; · iexact H2
    isplitl [HS]; · iexact HS
    iintro ⟨H0, H1, H2, HS⟩
    isplitl [Ha Hb Hc Hd He HS Hg]
    · isplitr [Hg]
      · isplitl [Ha]; · iexact Ha
        isplitl [Hb]; · iexact Hb
        isplitl [Hc]; · iexact Hc
        isplitl [Hd]; · iexact Hd
        isplitl [He]; · iexact He
        unfold stepAt; iexact HS
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hc0 : ¬ cond1_0 (grid1.coords t) := fun h => h0 ((hcond1_0 t).mp h)
    rw [accAt_acc V c t h0, PhiS_castSucc V c t, PhiS_pos V c _ _ hz]
    unfold restWith
    by_cases h1 : t.val % 16 = 15
    · -- the copy case
      have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3, accAt_acc V c t h0]
      iintro ⟨⟨⟨Ha, Hb, Hc, Hd, He, HS⟩, Hg⟩, Ho, ⟨%d0, H0⟩, ⟨%d1, H1⟩, ⟨%d2, H2⟩, ⟨%d3, H3⟩⟩
      iapply (sound_kernel1_C c Set.univ (grid1.coords t) _ _ _ _ _ _ _ _ _ _ (iblk1 V c 0 t) (iblk1 V c 1 t) (iblk1 V c 2 t) _ hc0 hc1 _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold stepAt; iexact HS
        iexact Hg
      isplitl [Ho]; · iexact Ho
      isplitl [H0]; · iexact H0
      isplitl [H1]; · iexact H1
      isplitl [H2]; · iexact H2
      unfold stepAt; iexact H3
    · -- the add case
      have hc1 : ¬ cond1_1 (grid1.coords t) := fun h => h1 ((hcond1_1 t).mp h)
      rw [Dat.leavesExact_idle (dat1 V c) 3 t (idleAt1_3 t hc1) (noFlush1_3 t hc1)]
      iintro ⟨⟨⟨Ha, Hb, Hc, Hd, He, HS⟩, Hg⟩, Ho, ⟨%d0, H0⟩, ⟨%d1, H1⟩, ⟨%d2, H2⟩, ⟨%d3, H3⟩⟩
      iapply (sound_kernel1_B c Set.univ (grid1.coords t) _ _ _ _ _ _ _ _ _ _ (iblk1 V c 0 t) (iblk1 V c 1 t) (iblk1 V c 2 t) _ hc0 hc1 _)
      isplitl [H0]; · iexact H0
      isplitl [H1]; · iexact H1
      isplitl [H2]; · iexact H2
      isplitl [HS]; · iexact HS
      iintro ⟨H0, H1, H2, HS⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold stepAt; iexact HS
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back, the accumulator's contents forgotten. -/
theorem hout1 (c : Dev nD) : (dat1 V c).Φ (Fin.last cfg1.N) ⊢ Pipeline.ΦA spec1 c := by
  have ht : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl,
    PhiS_pos V c _ _ ht, PhiA1_eq]
  unfold restWith
  iintro ⟨⟨Ha, Hb, Hc, Hd, He, HS⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS
  iexact Hg

end Cert.KernelIdeal.Hand

end
-- ==== Proof.KernelIdeal.Run.lean ====
/-
  The whole run of @main: the buffers' contents at each boundary between host stretches and kernel regions, the two
  regions as segments of the launch, and the run itself. Every weakly fair execution terminates, and at the end
  every buffer that outlives the kernels holds the last boundary's contents: the arguments as launched, the result
  the concatenation the last host operation makes of them and of what the second region left.
  The first region's arrays are three different buffers. The second region reads the projected matrix through two
  windows: the two windows hold it at the two halves of its full share, split at the region's entry and joined
  again at its exit.
-/
import proofs.«142424_j45286135169752_1_alg».proof.Proof.KernelIdeal.Region0
import proofs.«142424_j45286135169752_1_alg».proof.Proof.KernelIdeal.Region1
import proofs.«142424_j45286135169752_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

abbrev W0 : Dev nD → Valuation τ sig (Elt F) := fun c b => m (c, b)
abbrev W1 : Dev nD → Valuation τ sig (Elt F) := fun c => StableHlo.after hostOps0 (W0 m c)
/-- What the first region finds. -/
abbrev VR0 : (c : Dev nD) → (b : Ref sig .tc) → Buf (Elt F) ((c : Thread nD τ).loc b) := fun c b => W1 m c b
/-- At the first region's exit: its output array at what the write-backs leave, every other buffer as entered. -/
def W2 (c : Dev nD) : Valuation τ sig (Elt F) :=
  Pipeline.withArrays spec0 c (W1 m c) fun w => (dat0 (VR0 m) c).arrAt w cfg0.N
theorem W2_arr (c : Dev nD) (w : Fin cfg0.W) :
    W2 m c (Proc.devRef .tc (Pipeline.arrRef spec0 w)) = (dat0 (VR0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VX0 : (c : Dev nD) → (b : Ref sig .tc) → Buf (Elt F) ((c : Thread nD τ).loc b) := fun c b => W2 m c b
theorem hF0 (c : Dev nD) (w : Fin cfg0.W) : (dat0 (VR0 m) c).arrAt w cfg0.N = VX0 m c (Pipeline.arrRef spec0 w) :=
  (W2_arr m c w).symm
theorem hrest0 (c : Dev nD) : ∀ b, b ∉ Finset.univ.image (Pipeline.arrRef spec0) → VX0 m c b = VR0 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
/-- What the second region finds. -/
abbrev VR1 : (c : Dev nD) → (b : Ref sig .tc) → Buf (Elt F) ((c : Thread nD τ).loc b) := fun c b => W5 m c b
/-- At the second region's exit: its output array at what the write-backs leave, every other buffer as entered. -/
def W6 (c : Dev nD) : Valuation τ sig (Elt F) :=
  Function.update (W5 m c) (Proc.devRef .tc main_v11) ((dat1 (VR1 m) c).arrAt 3 cfg1.N)
abbrev VX1 : (c : Dev nD) → (b : Ref sig .tc) → Buf (Elt F) ((c : Thread nD τ).loc b) := fun c b => W6 m c b
abbrev W7 : Dev nD → Valuation τ sig (Elt F) := fun c => StableHlo.after hostOps2 (W6 m c)

theorem W6_out (c : Dev nD) : W6 m c (Proc.devRef .tc main_v11) = (dat1 (VR1 m) c).arrAt 3 cfg1.N := by
  unfold W6; exact Function.update_self ..
theorem W6_of_ne (c : Dev nD) (b : Ref sig .tc) (hb : b ≠ main_v11) : W6 m c (Proc.devRef .tc b) = W5 m c (Proc.devRef .tc b) := by
  unfold W6; exact Function.update_of_ne (StableHlo.devRef_ne_of_ne hb) ..

/-! ## The proof data family and the thread state -/

def pdatsH : (p : Fin 2) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR1 m) c
abbrev 𝒱₀ : Variants := Variants.none
abbrev Lz : GSem nD τ sig → Finset Unit := fun _ => ∅
abbrev lvz : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tfin (c : Dev nD) : sProp 𝕄 := iprop(StableHlo.held (c : Thread nD τ) (Pipeline.ucRefs τ sig) (W7 m c) ∗ ∃ r, prngReg c r)

/-! ## The second region's arrays out of the buffers and back -/

/-- The three buffers behind the second region's four windows. -/
theorem arrImage1 : Finset.univ.image (Pipeline.arrRef spec1) = ({main_v1, main_v10, main_v11} : Finset (Ref sig .tc)) := by decide

/-- The region's arrays, window by window, each at its share (the arrays are whole buffers). -/
theorem arrays1_eq (c : Dev nD) (dat : Dat τ (Elt F) Unit ℕ (UR sig nD τ) ℕ cfg1 c)
    (G : (w : Fin cfg1.W) → Buf (Elt F) ((cfg1.win w).arr.view.loc (c.tc : Thread nD τ))) :
    dat.arrays G = bigSep Finset.univ fun w => (((c.tc : Thread nD τ).loc (Pipeline.arrRef spec1 w)) ↦{dat.share w} G w : sProp 𝕄) := by
  unfold Dat.arrays
  exact bigSep_congr fun w _ => by rw [(arr_whole1 w).set_eq_univ]

theorem share1_0 (c : Dev nD) : (dat1 (VR1 m) c).share 0 = fullShare.left := rfl
theorem share1_1 (c : Dev nD) : (dat1 (VR1 m) c).share 1 = fullShare.right := rfl
theorem share1_2 (c : Dev nD) : (dat1 (VR1 m) c).share 2 = fullShare := rfl
theorem share1_3 (c : Dev nD) : (dat1 (VR1 m) c).share 3 = fullShare := rfl

/-- ENTRY: the buffers at the second region's entry contents give its arrays (the projected matrix at two half
    shares, one per window on it) and the rest. -/
theorem entry1 (c : Dev nD) :
    (StableHlo.held (c : Thread nD τ) (Pipeline.ucRefs τ sig) (W5 m c) : sProp 𝕄)
      ⊢ iprop((dat1 (VR1 m) c).arrays ((dat1 (VR1 m) c).arrAt · 0) ∗ Pipeline.unscopedRest (Ix := Unit) (Name := ℕ) (U := UR sig nD τ) (Lvl := ℕ) spec1 c (VR1 m c)) := by
  rw [← Pipeline.unscopedBufs_held (Ix := Unit) (Name := ℕ) (U := UR sig nD τ) (Lvl := ℕ) c (W5 m c),
    show (unscopedBufs c (fun b => W5 m c b) : sProp 𝕄) = _ from Pipeline.unscopedBufs_split₀ cfgs 1 winFacts₀1.arr_unscoped c (VR1 m c)]
  refine sep_mono ?_ .rfl
  rw [arrays1_eq, bigSep_W1, share1_0, share1_1, share1_2, share1_3]
  unfold Pipeline.arrBufs
  rw [show Finset.univ.image (Pipeline.arrRef (cfgs 1).spec) = ({main_v1, main_v10, main_v11} : Finset (Ref sig .tc)) from arrImage1,
    bigSep_insert (by decide), bigSep_insert (by decide), bigSep_singleton]
  rw [show (dat1 (VR1 m) c).arrAt 0 0 = VR1 m c main_v1 from rfl, show (dat1 (VR1 m) c).arrAt 1 0 = VR1 m c main_v1 from rfl,
    show (dat1 (VR1 m) c).arrAt 2 0 = VR1 m c main_v10 from rfl, show (dat1 (VR1 m) c).arrAt 3 0 = VR1 m c main_v11 from rfl]
  show (iprop((((c.tc : Thread nD τ).loc main_v1) ↦{fullShare} VR1 m c main_v1) ∗ (((c.tc : Thread nD τ).loc main_v10) ↦{fullShare} VR1 m c main_v10) ∗ (((c.tc : Thread nD τ).loc main_v11) ↦{fullShare} VR1 m c main_v11)) : sProp 𝕄) ⊢ _
  iintro ⟨H1, H10, H11⟩
  ihave H1' := (pointsTo_share (PosShare.mem_left_op_right fullShare)).1 $$ H1
  icases H1' with ⟨Ha, Hb⟩
  isplitl [Ha]; · iexact Ha
  isplitl [Hb]; · iexact Hb
  isplitl [H10]; · iexact H10
  iexact H11

theorem hrest1 (c : Dev nD) : ∀ b, b ∉ Finset.univ.image (Pipeline.arrRef spec1) → VX1 m c b = VR1 m c b :=
  fun b hb => W6_of_ne m c b fun e => hb (by rw [arrImage1, e]; decide)

/-- EXIT: the arrays at their final contents (the two half shares joined) and the rest are the buffers at the
    second region's exit contents. -/
theorem exit1 (c : Dev nD) :
    (iprop((dat1 (VR1 m) c).arrays ((dat1 (VR1 m) c).arrAt · cfg1.N) ∗ Pipeline.unscopedRest (Ix := Unit) (Name := ℕ) (U := UR sig nD τ) (Lvl := ℕ) spec1 c (VR1 m c)) : sProp 𝕄)
      ⊢ StableHlo.held (c : Thread nD τ) (Pipeline.ucRefs τ sig) (W6 m c) := by
  rw [← Pipeline.unscopedBufs_held (Ix := Unit) (Name := ℕ) (U := UR sig nD τ) (Lvl := ℕ) c (W6 m c),
    show (unscopedBufs c (fun b => W6 m c b) : sProp 𝕄) = _ from Pipeline.unscopedBufs_split₀ cfgs 1 winFacts₀1.arr_unscoped c (VX1 m c)]
  refine sep_mono ?_ (Entails.of_eq ?_)
  · rw [arrays1_eq, bigSep_W1, share1_0, share1_1, share1_2, share1_3]
    unfold Pipeline.arrBufs
    rw [show Finset.univ.image (Pipeline.arrRef (cfgs 1).spec) = ({main_v1, main_v10, main_v11} : Finset (Ref sig .tc)) from arrImage1,
    bigSep_insert (by decide), bigSep_insert (by decide), bigSep_singleton]
    have e0 : (dat1 (VR1 m) c).arrAt 0 cfg1.N = VX1 m c main_v1 :=
      ((dat1 (VR1 m) c).arrAt_in 0 rfl _).trans ((A_eq1 (VR1 m) c 0).trans (W6_of_ne m c main_v1 (by decide)).symm)
    have e1 : (dat1 (VR1 m) c).arrAt 1 cfg1.N = VX1 m c main_v1 :=
      ((dat1 (VR1 m) c).arrAt_in 1 rfl _).trans ((A_eq1 (VR1 m) c 1).trans (W6_of_ne m c main_v1 (by decide)).symm)
    have e2 : (dat1 (VR1 m) c).arrAt 2 cfg1.N = VX1 m c main_v10 :=
      ((dat1 (VR1 m) c).arrAt_in 2 rfl _).trans ((A_eq1 (VR1 m) c 2).trans (W6_of_ne m c main_v10 (by decide)).symm)
    have e3 : (dat1 (VR1 m) c).arrAt 3 cfg1.N = VX1 m c main_v11 := (W6_out m c).symm
    rw [e0, e1, e2, e3]
    show _ ⊢ (iprop((((c.tc : Thread nD τ).loc main_v1) ↦{fullShare} VX1 m c main_v1) ∗ (((c.tc : Thread nD τ).loc main_v10) ↦{fullShare} VX1 m c main_v10) ∗ (((c.tc : Thread nD τ).loc main_v11) ↦{fullShare} VX1 m c main_v11)) : sProp 𝕄)
    iintro ⟨Ha, Hb, H10, H11⟩
    ihave H1 := (pointsTo_share (PosShare.mem_left_op_right fullShare)).2 $$ [Ha Hb]
    · isplitl [Ha] <;> iassumption
    isplitl [H1]; · iexact H1
    isplitl [H10]; · iexact H10
    iexact H11
  · unfold Pipeline.unscopedRest
    exact bigSep_congr fun b hb => by rw [hrest1 m c b (Finset.mem_sdiff.mp hb).2]

/-! ## The regions as segments -/

set_option backward.isDefEq.respectTransparency.types false in
def regH0 : Pipeline.RegionSeg (pcfgs (F := F)) adm (pdatsH m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (VR0 m c)
  hentry c := by
    rw [Pipeline.ownSems0_none]
    have hsplit := Pipeline.arrays_of_unscopedBufs (p := 0) (pcfgs (F := F)) adm (pdatsH m) launch0.win launch0.arr_whole c
      ((pdatsH m 0 c).share_full fun _ => rfl) (VR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsH m) ((pdatsH m 0 c).share_full fun _ => rfl)
      (VR0 m c) (VX0 m c) ((pdatsH m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def regH1 : Pipeline.RegionSeg (pcfgs (F := F)) adm (pdatsH m) () defs₀ 𝒱₀ Lz lvz 1 where
  win := winFacts₀1
  block_pos := block_pos1
  stage_whole := stage_whole1
  K := PEmpty
  osem k := k.elim
  ho := Pipeline.OwnSemFacts.none _
  hbody c := (body_obligation1 (VR1 m) c).loose
  hwaits := Pipeline.hwaits_of_owed_zero _ _ _ _ Lz lvz 1 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec1 c (VR1 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (VR1 m) c)
    unfold Pipeline.ΦA
    iintro ⟨Hp, -, Hr⟩
    isplitl [Hr]; · iexact Hr
    iexact Hp
  hout c := by
    rw [Pipeline.ownSems0_none]
    refine (hout1 (VR1 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · have hx : (iprop((pdatsH m 1 c).arrays ((pdatsH m 1 c).arrAt · (Pipeline.pin (pcfgs (F := F)) adm 1).N)
          ∗ Pipeline.unscopedRest (Ix := Unit) (Name := ℕ) (U := UR sig nD τ) (Lvl := ℕ) spec1 c (VR1 m c)) : sProp 𝕄)
          ⊢ StableHlo.held (c : Thread nD τ) (Pipeline.ucRefs τ sig) (W6 m c) := exit1 m c
      iapply hx; isplitl [Ha] <;> iassumption
    isplitl [HY]; · iexact HY
    unfold Pipeline.Dat.owesAt Pipeline.owesWithin
    icases HO with ⟨%W, -, HO⟩; iexists W; iexact HO

/-! ## @main as segments, and the launch -/

abbrev segsH : List (Pipeline.Seg (pcfgs (F := F)) adm (pdatsH m) () defs₀ 𝒱₀ Lz lvz) :=
  [ .host (hsegH hostOps0 hostOps0_sub hostOps0_fresh (W0 m)),
    .region (regH0 m),
    .host (hsegH hostOps1 hostOps1_sub hostOps1_fresh (W2 m)),
    .host (hsegH hostOps1_1 hostOps1_1_sub hostOps1_1_fresh (W3 m)),
    .host (hsegH hostOps1_2 hostOps1_2_sub hostOps1_2_fresh (W4 m)),
    .region (regH1 m),
    .host (hsegH hostOps2 hostOps2_sub hostOps2_fresh (W6 m)) ]

theorem main_runH (c : Dev nD) : main (F := F) c = Pipeline.Seg.run (segsH m) := (main_chain c).trans (by chain_rfl)

set_option backward.isDefEq.respectTransparency.types false in
/-- THE RUN: from any memory with zero counters every weakly fair execution of @main terminates, nothing faulting,
    and every buffer that outlives the kernels ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdatsH m) () cellOf_inj emb₁ defs₀ 𝒱₀ Lz lvz m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tfin m)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m c) ∗ Rr c) : sProp 𝕄)
        ⊢ iprop(Tfin m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-! ## The arguments end as launched -/

/-- The first argument is an input array of the first region, read and never written; no host operation writes it. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := StableHlo.after_of_writes_sub hostOps2 _ hostOps2_writes (by decide)
    _ = W5 m c (Proc.devRef .tc main_arg0) := W6_of_ne m c main_arg0 (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (VR0 m) c).arrAt_in 0 rfl _).trans (A_eq0 (VR0 m) c 0))
    _ = W0 m c (Proc.devRef .tc main_arg0) := StableHlo.after_of_writes_sub hostOps0 _ hostOps0_writes (by decide)
    _ = m ((c : Thread nD τ).loc main_arg0) := rfl

/-- The second argument is read by the first host operation only; no region stages it and nothing writes it. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := StableHlo.after_of_writes_sub hostOps2 _ hostOps2_writes (by decide)
    _ = W5 m c (Proc.devRef .tc main_arg1) := W6_of_ne m c main_arg1 (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- THE FRAME: every weakly fair execution terminates, nothing faulting, and the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c _ (mem_uc main_arg0 (by decide))).trans (W7_main_arg0 m c),
       (h c _ (mem_uc main_arg1 (by decide))).trans (W7_main_arg1 m c)⟩)
    (run_all m ρ)

end Cert.KernelIdeal.Hand

end
-- ==== Proof.Spec.lean ====
/-
  The mathematics both programs compute, over the extended reals.
  With x : [512, 1024] and the weights flattened to w : [1024, 1024] (column 16·o + k is entry (o, k) of the
  [64, 16] trailing axes), the projected matrix is M = x · w. The feature of row i in group o is
      Σ_j exp(−Σ_{k<16} |M[j, 16·o + k] − M[i, 16·o + k]|),
  the sum over all 512 rows j of exp(−(L1 distance within group o)).
-/
import Idealize.ShloMosaic.PureOps.Ideal
import Idealize.ShloMosaic.Lib.ValueIdx

noncomputable section

namespace Cert.Spec

open Idealize.ShloMosaic

/-- The weights flattened: column `k` of the flat matrix is entry (k / 16, k % 16) of the trailing axes. -/
def unflat (T : Fin 1024 → Fin 64 → Fin 16 → EReal) (r k : Fin 1024) : EReal :=
  T r ⟨k.val / 16, by have := k.isLt; omega⟩ ⟨k.val % 16, by omega⟩

/-- The projected matrix: row `i` of `x` against column `k` of the flat weights. -/
def proj (x : Fin 512 → Fin 1024 → EReal) (w : Fin 1024 → Fin 1024 → EReal) (i : Fin 512) (k : Fin 1024) : EReal :=
  ∑ r : Fin 1024, x i r * w r k

/-- Column `k` of group `o` among the 1024 projected columns. -/
def col (o : Fin 64) (k : Fin 16) : Fin 1024 := ⟨o.val * 16 + k.val, by have := o.isLt; have := k.isLt; omega⟩

/-- The absolute value on the extended reals. -/
def abs (d : EReal) : EReal := max d (-d)

/-- The L1 distance within group `o` between rows `a` and `b` of `M`, each term `|M b − M a|`. -/
def dist (M : Fin 512 → Fin 1024 → EReal) (a b : Fin 512) (o : Fin 64) : EReal :=
  ∑ k : Fin 16, abs (M b (col o k) - M a (col o k))

/-- The feature of row `i` in group `o`: the sum over all rows `j` of exp(−distance(i, j)). -/
def feat (M : Fin 512 → Fin 1024 → EReal) (i : Fin 512) (o : Fin 64) : EReal :=
  ∑ j : Fin 512, Ideal.exp (-(dist M i j o))

/-- The 0/1 group matrix: column `k` belongs to group `k / 16`. -/
def gind (k : Fin 1024) (o : Fin 64) : EReal := if k.val / 16 = o.val then 1 else 0

/-- Row `b` of row block `jb` (32 rows a block, 16 blocks). -/
def row32 (jb : Fin 16) (b : Fin 32) : Fin 512 := ⟨jb.val * 32 + b.val, by have := jb.isLt; have := b.isLt; omega⟩

/-- Row `a` of row block `ib` (128 rows a block, 4 blocks). -/
def row128 (ib : Fin 4) (a : Fin 128) : Fin 512 := ⟨ib.val * 128 + a.val, by have := ib.isLt; have := a.isLt; omega⟩

/-- What one accumulation step of the kernel adds for row `i` and group `o` at column block `jb`: the sum over the
    block's 32 rows of exp(0 − Σ_k |M i k − M j k| · g k o), the grouped distance taken as a product with the 0/1 matrix. -/
def partK (M : Fin 512 → Fin 1024 → EReal) (g : Fin 1024 → Fin 64 → EReal) (i : Fin 512) (jb : Fin 16) (o : Fin 64) : EReal :=
  ∑ b : Fin 32, Ideal.exp (0 - ∑ k : Fin 1024, abs (M i k - M (row32 jb b) k) * g k o)

end Cert.Spec

end
-- ==== Proof.KernelIdeal.GMat.lean ====
/-
  The 0/1 group matrix as the host computes it: the column index divided by 16 (a floor division spelt with its
  sign corrections, none of which fires on 0 ≤ k < 1024) compared with the group index, and the truth value read as a
  float: 1 where column k belongs to group o, else 0. Whatever the buffers held before, after the three host
  stretches the matrix's buffer holds this.
-/
import proofs.«142424_j45286135169752_1_alg».proof.Proof.Gen.KernelIdeal.Launch
import proofs.«142424_j45286135169752_1_alg».proof.Proof.Spec
import Idealize.ShloMosaic.Lib.ValueIdx
import Idealize.ShloMosaic.Lib.ValueLayout
import Idealize.ShloMosaic.Lib.StableHlo.Run
import Idealize.ShloMosaic.Lib.StableHlo.Predicate

noncomputable section

namespace Cert.KernelIdeal.GMat

open Cert.KernelIdeal Cert.KernelIdeal.Gen Idealize.ShloMosaic Idealize.ShloMosaic.TcCoe Idealize.ShloMosaic.ValueIdx

/-! ## The host's term

The operations of the three stretches composed: a term over no buffer. -/

/-- The column indices 0 … 1023 as 32-bit words. -/
def cols : IVec S1024 32 := iotaInDim S1024 32 0

/-- The divisor 16, a scalar word. -/
def sixteen : IVec S_ 32 := constantI S_ 32 16#32

/-- The truncated quotient of every column index by 16. -/
def quot : IVec S1024 32 := Host.divsi cols (broadcastInDim S1024 ![] bcast_S_S1024 sixteen)

/-- The floor division of every column index by 16 as the host spells it: the truncated quotient, less one where the
    signs of dividend and divisor differ and the remainder is not zero. -/
def fdiv : IVec S1024 32 :=
  select
    (andi (cmpi .ne (signi cols) (broadcastInDim S1024 ![] bcast_S_S1024 (signi sixteen)))
          (cmpi .ne (Host.remsi cols (broadcastInDim S1024 ![] bcast_S_S1024 sixteen))
                    (broadcastInDim S1024 ![] bcast_S_S1024 (constantI S_ 32 0#32))))
    (subi quot (broadcastInDim S1024 ![] bcast_S_S1024 (constantI S_ 32 1#32)))
    quot

/-- The group matrix as the host computes it: "column index floor-divided by 16 equals group index", read as a float. -/
def gmat : Vec Ideal S1024x64 .bf16 :=
  uitofp (F := Ideal) .bf16
    (cmpi .eq
      (broadcastInDim S1024x64 ![0, 1] bcast_S1024x1_S1024x64_0_1 (broadcastInDim S1024x1 ![0] bcast_S1024_S1024x1_0 fdiv))
      (broadcastInDim S1024x64 ![0, 1] bcast_S1x64_S1024x64_0_1 (broadcastInDim S1x64 ![1] bcast_S64_S1x64_1 (iotaInDim S64 32 0))))

/-- Whatever the buffers held, after the three stretches the matrix's buffer holds that term. -/
theorem after_eq (W : Valuation τ sig (Elt Ideal)) :
    (show Vec Ideal S1024x64 .bf16 from
        StableHlo.after (hostOps1_2 (F := Ideal)) (StableHlo.after (hostOps1_1 (F := Ideal)) (StableHlo.after (hostOps1 (F := Ideal)) W))
          (Proc.devRef .tc main_v10)) = gmat := by
  after_results
  rfl

/-! ## The words -/

/-- The sign of a word as a word: 0, −1 or 1. -/
def sgnW (x : BitVec 32) : BitVec 32 := if x = 0 then 0 else if x.msb then -1 else 1

/-- The host's floor division by 16 on one word. -/
def fdivW (x : BitVec 32) : BitVec 32 :=
  Scalar.select
    (IntOp.andi (IntOp.cmpi .ne (sgnW x) (sgnW 16#32)) (IntOp.cmpi .ne (IntOp.remsi .host x 16#32) 0#32))
    (IntOp.subi (IntOp.divsi .host x 16#32) 1#32)
    (IntOp.divsi .host x 16#32)

/-- On 0 ≤ k < 1024 it is the word of k / 16: no sign correction fires. -/
theorem fdivW_eq : ∀ k : Fin 1024, fdivW (BitVec.ofNat 32 k.val) = BitVec.ofNat 32 (k.val / 16) := by
  decide +kernel

/-! ## The term read at (k, o) -/

/-- A vector laid along the rows of the rectangle reads, at (k, o), the vector at k. -/
theorem bcast_rows_at {α : Type} (v : S1024.Idx → α) (k : Fin 1024) (o : Fin 64) :
    broadcastInDim S1024x64 ![0, 1] bcast_S1024x1_S1024x64_0_1 (broadcastInDim S1024x1 ![0] bcast_S1024_S1024x1_0 v) (ix2 k o)
      = v (ix1 k) := by
  simp only [broadcastInDim]
  congr 1
  funext a
  have ha : a = 0 := Subsingleton.elim _ _
  subst ha
  apply Fin.ext
  split
  · next h1 => exact absurd h1 (by decide)
  · split
    · next h2 => exact absurd h2 (by decide)
    · rfl

/-- A vector laid along the columns of the rectangle reads, at (k, o), the vector at o. -/
theorem bcast_cols_at {α : Type} (v : S64.Idx → α) (k : Fin 1024) (o : Fin 64) :
    broadcastInDim S1024x64 ![0, 1] bcast_S1x64_S1024x64_0_1 (broadcastInDim S1x64 ![1] bcast_S64_S1x64_1 v) (ix2 k o)
      = v (ix1 o) := by
  simp only [broadcastInDim]
  congr 1
  funext a
  have ha : a = 0 := Subsingleton.elim _ _
  subst ha
  apply Fin.ext
  split
  · next h1 => exact absurd h1 (by decide)
  · split
    · next h2 => exact absurd h2 (by decide)
    · rfl

/-- The host's floor division read at column k is the one-word function at the word of k: the scalars broadcast read
    the same at every index. -/
theorem fdiv_apply (k : Fin 1024) : fdiv (ix1 k) = fdivW (BitVec.ofNat 32 k.val) := rfl

/-- The matrix read at (k, o): the truth value of "the floor division at k equals the word of o", as a float. -/
theorem gmat_at (k : Fin 1024) (o : Fin 64) :
    gmat (ix2 k o)
      = (((IntOp.cmpi .eq (fdivW (BitVec.ofNat 32 k.val)) (BitVec.ofNat 32 o.val)).toNat : ℝ) : EReal) := by
  show (((IntOp.cmpi .eq
      (broadcastInDim S1024x64 ![0, 1] bcast_S1024x1_S1024x64_0_1 (broadcastInDim S1024x1 ![0] bcast_S1024_S1024x1_0 fdiv) (ix2 k o))
      (broadcastInDim S1024x64 ![0, 1] bcast_S1x64_S1024x64_0_1 (broadcastInDim S1x64 ![1] bcast_S64_S1x64_1 (iotaInDim S64 32 0)) (ix2 k o))).toNat : ℝ) : EReal) = _
  rw [bcast_rows_at, bcast_cols_at, fdiv_apply]
  rfl

theorem gmat_apply (W : Valuation τ sig (Elt Ideal)) (k : Fin 1024) (o : Fin 64) :
    (show Vec Ideal S1024x64 .bf16 from
        StableHlo.after (hostOps1_2 (F := Ideal)) (StableHlo.after (hostOps1_1 (F := Ideal)) (StableHlo.after (hostOps1 (F := Ideal)) W))
          (Proc.devRef .tc main_v10)) (ix2 k o)
      = Cert.Spec.gind k o := by
  rw [after_eq W, gmat_at, fdivW_eq]
  unfold Cert.Spec.gind
  have hk : k.val / 16 < 2 ^ 32 := by have := k.isLt; omega
  have ho : o.val < 2 ^ 32 := by have := o.isLt; omega
  by_cases h : k.val / 16 = o.val
  · rw [if_pos h, h]
    have e : IntOp.cmpi .eq (BitVec.ofNat 32 o.val) (BitVec.ofNat 32 o.val) = 1#1 := StableHlo.Predicate.cmpi_eq_iff.mpr rfl
    rw [e]
    simp
  · rw [if_neg h]
    have hne : BitVec.ofNat 32 (k.val / 16) ≠ BitVec.ofNat 32 o.val := by
      intro e
      have := congrArg BitVec.toNat e
      simp only [BitVec.toNat_ofNat] at this
      rw [Nat.mod_eq_of_lt hk, Nat.mod_eq_of_lt ho] at this
      exact h this
    have e : IntOp.cmpi .eq (BitVec.ofNat 32 (k.val / 16)) (BitVec.ofNat 32 o.val) = 0#1 :=
      eq_zero_of_ne_one (fun h1 => hne (StableHlo.Predicate.cmpi_eq_iff.mp h1))
    rw [e]
    simp

end Cert.KernelIdeal.GMat

end
-- ==== Proof.KernelIdeal.Bounds.lean ====
/-
  What the buffers the value argument reads hold at the boundaries where they are read, at the ideal instance:
  the first region finds the first argument as launched and the second argument flattened; the second region finds the
  projected matrix as the first region's write-backs left it and the 0/1 group matrix; the result is the last host
  operation's concatenation of the first argument with what the second region's write-backs left.
-/
import proofs.«142424_j45286135169752_1_alg».proof.Proof.KernelIdeal.Run
import proofs.«142424_j45286135169752_1_alg».proof.Proof.KernelIdeal.GMat
import proofs.«142424_j45286135169752_1_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- The first region finds the first argument as launched. -/
theorem VR0_arg0 (c : Dev nD) : VR0 m c main_arg0 = m ((c : Thread nD τ).loc main_arg0) :=
  (StableHlo.after_of_writes_sub hostOps0 _ hostOps0_writes (by decide)).trans rfl

/-- The first region finds the second argument flattened. -/
theorem VR0_v0 (c : Dev nD) :
    (VR0 m c main_v0 : Vec Ideal S1024x1024 .f32) = shapeCast S1024x1024 (m ((c : Thread nD τ).loc main_arg1)) shapeCasts_S1024x64x16_S1024x1024 := by
  show StableHlo.after (hostOps0 (F := Ideal)) (fun b => m (c, b)) (Proc.devRef .tc main_v0) = _
  after_results
  rfl

/-- The flattened weights at (r, k): entry (k / 16, k % 16) of row r. -/
theorem VR0_v0_apply (c : Dev nD) (r k : Fin 1024) :
    (VR0 m c main_v0 : Vec Ideal S1024x1024 .f32) (ix2 r k)
      = Cert.Spec.unflat (fun r q j => (m ((c : Thread nD τ).loc main_arg1) : Vec Ideal S1024x64x16 .f32) (ix3 r q j)) r k := by
  rw [VR0_v0]
  unfold Cert.Spec.unflat
  exact shapeCast_apply (m ((c : Thread nD τ).loc main_arg1)) shapeCasts_S1024x64x16_S1024x1024 (ix2 r k)
    (ix3 r ⟨k.val / 16, by have := k.isLt; omega⟩ ⟨k.val % 16, by omega⟩)
    (by show ((S1024x64x16.rowMajor (ix3 r ⟨k.val / 16, by have := k.isLt; omega⟩ ⟨k.val % 16, by omega⟩)).val : Nat) = (S1024x1024.rowMajor (ix2 r k)).val
        rewrite [Shape.rowMajor_val_three, Shape.rowMajor_val_two]
        have hr : r.val < 1024 := r.isLt
        have hk : k.val < 1024 := k.isLt
        show (r.val * 64 + k.val / 16) * 16 + k.val % 16 = r.val * 1024 + k.val
        omega)

/-- The second region finds the projected matrix as the first region's write-backs left it. -/
theorem VR1_v1 (c : Dev nD) : VR1 m c main_v1 = (dat0 (VR0 m) c).arrAt 2 cfg0.N :=
  calc W5 m c (Proc.devRef .tc main_v1)
    _ = W4 m c (Proc.devRef .tc main_v1) := StableHlo.after_of_writes_sub hostOps1_2 _ hostOps1_2_writes (by decide)
    _ = W3 m c (Proc.devRef .tc main_v1) := StableHlo.after_of_writes_sub hostOps1_1 _ hostOps1_1_writes (by decide)
    _ = W2 m c (Proc.devRef .tc main_v1) := StableHlo.after_of_writes_sub hostOps1 _ hostOps1_writes (by decide)
    _ = (dat0 (VR0 m) c).arrAt 2 cfg0.N := W2_arr m c 2

/-- The second region finds the 0/1 group matrix. -/
theorem VR1_v10_apply (c : Dev nD) (k : Fin 1024) (o : Fin 64) :
    (VR1 m c main_v10 : Vec Ideal S1024x64 .bf16) (ix2 k o) = Cert.Spec.gind k o :=
  Cert.KernelIdeal.GMat.gmat_apply (W2 m c) k o

/-- The last host operation sees the first argument as launched. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (VR0 m) c).arrAt_in 0 rfl _).trans (A_eq0 (VR0 m) c 0))
    _ = W0 m c (Proc.devRef .tc main_arg0) := StableHlo.after_of_writes_sub hostOps0 _ hostOps0_writes (by decide)
    _ = m ((c : Thread nD τ).loc main_arg0) := rfl

/-- The result: the first argument beside what the second region's write-backs left, concatenated along the columns. -/
theorem W7_result (c : Dev nD) :
    (W7 m c (Proc.devRef .tc main_v12) : Vec Ideal S512x1088 .f32)
      = concatenate S512x1088 1 [⟨S512x1024, (m ((c : Thread nD τ).loc main_arg0) : Vec Ideal S512x1024 .f32)⟩,
          ⟨S512x64, ((dat1 (VR1 m) c).arrAt 3 cfg1.N : Vec Ideal S512x64 .f32)⟩] concatenates_S512x1024_S512x64_S512x1088_d1 := by
  rw [← W6_main_arg0 m c, ← W6_out m c]
  show StableHlo.after (hostOps2 (F := Ideal)) (W6 m c) (Proc.devRef .tc main_v12) = _
  after_results

end Cert.KernelIdeal.Hand

end
-- ==== Proof.KernelIdeal.KMath.lean ====
/-
  The kernel bodies' arithmetic read at an index, at the ideal instance: the projection body's payload is the
  matrix product of its two blocks; the distance body's reset payload is zero, and its step payload adds to the
  accumulator, for row a and group o, the sum over the 32 rows b of the second block of
  exp(0 − Σ_k |x0[a,k] − x1[b,k]| · x2[k,o]).
-/
import proofs.«142424_j45286135169752_1_alg».proof.Proof.Gen.KernelIdeal.Skeleton
import proofs.«142424_j45286135169752_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KMath

open Cert.KernelIdeal Cert.KernelIdeal.Gen Idealize.ShloMosaic Idealize.ShloMosaic.ValueIdx

/-! ## The projection: a [128,1024] × [1024,1024] product, the operand indices of its contraction -/

/-- The left operand's row is the output's row. -/
theorem lhs_proj_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
/-- The left operand's column is the contraction coordinate. -/
theorem lhs_proj_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
/-- The right operand's row is the contraction coordinate. -/
theorem rhs_proj_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
/-- The right operand's column is the output's column. -/
theorem rhs_proj_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- The product into zeros, read at (p, q): the sum over the 1024 contraction coordinates of left (p, r) times right (r, q). -/
theorem matmul_proj_apply (l : FVec Ideal S128x1024 .bf16) (r : FVec Ideal S1024x1024 .bf16) (p : Fin 128) (q : Fin 1024) :
    FloatOps.matmul dot_S128x1024_S1024x1024_S128x1024_1_0_0_1_n_n none l r (constant (F := Ideal) S128x1024 .f32 0x00000000#32) (ix2 p q)
      = ∑ k : Fin 1024, l (ix2 p k) * r (ix2 k q) := by
  rw [Ideal.matmul_constant_zero_apply, ← Equiv.sum_comp (ValueIdx.contrEquiv1 dot_S128x1024_S1024x1024_S128x1024_1_0_0_1_n_n 1024 rfl rfl).symm]
  refine Finset.sum_congr rfl fun k _ => ?_
  have hk := ValueIdx.contrEquiv1_symm_val dot_S128x1024_S1024x1024_S128x1024_1_0_0_1_n_n 1024 rfl rfl k
  have el : dot_S128x1024_S1024x1024_S128x1024_1_0_0_1_n_n.lhsIdx (ix2 p q) ((ValueIdx.contrEquiv1 dot_S128x1024_S1024x1024_S128x1024_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S128x1024_S1024x1024_S128x1024_1_0_0_1_n_n.rhsIdx (ix2 p q) ((ValueIdx.contrEquiv1 dot_S128x1024_S1024x1024_S128x1024_1_0_0_1_n_n 1024 rfl rfl).symm k) = ix2 k q := funext fun a => Fin.ext (by
    match a with
    | ⟨0, _⟩ => exact (rhs_proj_0 _ _).trans hk
    | ⟨1, _⟩ => exact rhs_proj_1 _ _)
  rw [el, er]

theorem proj_pay (x0 : Vec Ideal S128x1024 .f32) (x1 : Vec Ideal S1024x1024 .f32) (p : Fin 128) (q : Fin 1024) :
    (k0_pay1 (F := Ideal) x0 x1) (ix2 p q) = ∑ r : Fin 1024, x0 (ix2 p r) * x1 (ix2 r q) := by
  unfold k0_pay1
  refine (matmul_proj_apply _ _ p q).trans ?_
  refine Finset.sum_congr rfl fun k _ => ?_
  rw [shapeCast_self]
  rfl

/-! ## The reset: the zero word broadcast -/

theorem zero_pay (a : Fin 128) (o : Fin 64) : (k1_pay1 (F := Ideal)) (ix2 a o) = 0 := by
  unfold k1_pay1
  rw [shapeCast_self]
  exact Ideal.ofBits_zero_f32

/-! ## The distance step: the operand indices of its [4096,1024] × [1024,64] product -/

/-- The left operand's row is the output's row. -/
theorem lhs_dist_0 (i : S4096x64.Idx) (q : dot_S4096x1024_S1024x64_S4096x64_1_0_0_1_n_n.contr.Idx) :
    (dot_S4096x1024_S1024x64_S4096x64_1_0_0_1_n_n.lhsIdx i q 0).val = (i 0).val := by
  unfold DotDims.lhsIdx
  rw [dif_neg (show ¬(0 : Fin S4096x1024.rank) ∈ dot_S4096x1024_S1024x64_S4096x64_1_0_0_1_n_n.lhsBatch by decide), dif_pos (show (0 : Fin S4096x1024.rank) ∈ dot_S4096x1024_S1024x64_S4096x64_1_0_0_1_n_n.lhsNonContracting by decide)]
  rfl
/-- The left operand's column is the contraction coordinate. -/
theorem lhs_dist_1 (i : S4096x64.Idx) (q : dot_S4096x1024_S1024x64_S4096x64_1_0_0_1_n_n.contr.Idx) :
    (dot_S4096x1024_S1024x64_S4096x64_1_0_0_1_n_n.lhsIdx i q 1).val = (q ⟨0, by decide⟩).val :=
  dot_S4096x1024_S1024x64_S4096x64_1_0_0_1_n_n.lhsIdx_val_of_single rfl i q
/-- The right operand's row is the contraction coordinate. -/
theorem rhs_dist_0 (i : S4096x64.Idx) (q : dot_S4096x1024_S1024x64_S4096x64_1_0_0_1_n_n.contr.Idx) :
    (dot_S4096x1024_S1024x64_S4096x64_1_0_0_1_n_n.rhsIdx i q 0).val = (q ⟨0, by decide⟩).val :=
  dot_S4096x1024_S1024x64_S4096x64_1_0_0_1_n_n.rhsIdx_val_of_single rfl i q
/-- The right operand's column is the output's column. -/
theorem rhs_dist_1 (i : S4096x64.Idx) (q : dot_S4096x1024_S1024x64_S4096x64_1_0_0_1_n_n.contr.Idx) :
    (dot_S4096x1024_S1024x64_S4096x64_1_0_0_1_n_n.rhsIdx i q 1).val = (i 1).val := by
  unfold DotDims.rhsIdx
  rw [dif_neg (show ¬(1 : Fin S1024x64.rank) ∈ dot_S4096x1024_S1024x64_S4096x64_1_0_0_1_n_n.rhsBatch by decide), dif_pos (show (1 : Fin S1024x64.rank) ∈ dot_S4096x1024_S1024x64_S4096x64_1_0_0_1_n_n.rhsNonContracting by decide)]
  rfl

/-- The product into zeros, read at (m, o): the sum over the 1024 contraction coordinates of left (m, k) times right (k, o). -/
theorem matmul_dist_apply (l : FVec Ideal S4096x1024 .bf16) (r : FVec Ideal S1024x64 .bf16) (m : Fin 4096) (o : Fin 64) :
    FloatOps.matmul dot_S4096x1024_S1024x64_S4096x64_1_0_0_1_n_n none l r (constant (F := Ideal) S4096x64 .f32 0x00000000#32) (ix2 m o)
      = ∑ k : Fin 1024, l (ix2 m k) * r (ix2 k o) := by
  rw [Ideal.matmul_constant_zero_apply, ← Equiv.sum_comp (ValueIdx.contrEquiv1 dot_S4096x1024_S1024x64_S4096x64_1_0_0_1_n_n 1024 rfl rfl).symm]
  refine Finset.sum_congr rfl fun k _ => ?_
  have hk := ValueIdx.contrEquiv1_symm_val dot_S4096x1024_S1024x64_S4096x64_1_0_0_1_n_n 1024 rfl rfl k
  have el : dot_S4096x1024_S1024x64_S4096x64_1_0_0_1_n_n.lhsIdx (ix2 m o) ((ValueIdx.contrEquiv1 dot_S4096x1024_S1024x64_S4096x64_1_0_0_1_n_n 1024 rfl rfl).symm k) = ix2 m k := funext fun a => Fin.ext (by
    match a with
    | ⟨0, _⟩ => exact lhs_dist_0 _ _
    | ⟨1, _⟩ => exact (lhs_dist_1 _ _).trans hk)
  have er : dot_S4096x1024_S1024x64_S4096x64_1_0_0_1_n_n.rhsIdx (ix2 m o) ((ValueIdx.contrEquiv1 dot_S4096x1024_S1024x64_S4096x64_1_0_0_1_n_n 1024 rfl rfl).symm k) = ix2 k o := funext fun a => Fin.ext (by
    match a with
    | ⟨0, _⟩ => exact (rhs_dist_0 _ _).trans hk
    | ⟨1, _⟩ => exact rhs_dist_1 _ _)
  rw [el, er]

/-! ## The distance step: its layout operations read at literal coordinates -/

/-- Row b of the 32 rows under row a, among the 4096 flattened rows: a · 32 + b. -/
def flatRow (a : Fin 128) (b : Fin 32) : Fin 4096 := ⟨a.val * 32 + b.val, by have := a.isLt; have := b.isLt; omega⟩

/-- [128,32,1024] flattened to [4096,1024]: flat row a · 32 + b, column k, is entry (a, b, k). -/
theorem flatten_apply {α : Type} (v : S128x32x1024.Idx → α) (a : Fin 128) (b : Fin 32) (k : Fin 1024) :
    shapeCast S4096x1024 v shapeCasts_S128x32x1024_S4096x1024 (ix2 (flatRow a b) k) = v (ix3 a b k) :=
  shapeCast_apply v shapeCasts_S128x32x1024_S4096x1024 (ix2 (flatRow a b) k) (ix3 a b k)
    (by rewrite [Shape.rowMajor_val_three, Shape.rowMajor_val_two]; show (a.val * 32 + b.val) * 1024 + k.val = (a.val * 32 + b.val) * 1024 + k.val; rfl)

/-- [4096,64] unflattened to [128,32,64]: entry (a, b, o) is flat row a · 32 + b, column o. -/
theorem unflatten_apply {α : Type} (w : S4096x64.Idx → α) (a : Fin 128) (b : Fin 32) (o : Fin 64) :
    shapeCast S128x32x64 w shapeCasts_S4096x64_S128x32x64 (ix3 a b o) = w (ix2 (flatRow a b) o) :=
  shapeCast_apply w shapeCasts_S4096x64_S128x32x64 (ix3 a b o) (ix2 (flatRow a b) o)
    (by rewrite [Shape.rowMajor_val_two, Shape.rowMajor_val_three]; show (a.val * 32 + b.val) * 64 + o.val = (a.val * 32 + b.val) * 64 + o.val; rfl)

/-- A [128,1024] block given a middle unit axis and repeated over 32: entry (a, b, k) is the block's (a, k). -/
theorem rows_bcast_apply {α : Type} (v : S128x1024.Idx → α) (a : Fin 128) (b : Fin 32) (k : Fin 1024) :
    broadcastTo S128x32x1024 (shapeCast S128x1x1024 v shapeCasts_S128x1024_S128x1x1024) broadcasts_S128x1x1024_S128x32x1024 (ix3 a b k)
      = v (ix2 a k) := by
  refine (broadcastTo_apply _ broadcasts_S128x1x1024_S128x32x1024 (ix3 a b k) (ix3 a (0 : Fin 1) k) (fun c => match c with
    | ⟨0, _⟩ => by show a.val = if (128 : Nat) = 1 then 0 else a.val; rw [if_neg (by decide)]
    | ⟨1, _⟩ => by show 0 = if (1 : Nat) = 1 then 0 else b.val; rw [if_pos rfl]
    | ⟨2, _⟩ => by show k.val = if (1024 : Nat) = 1 then 0 else k.val; rw [if_neg (by decide)])).trans ?_
  exact shapeCast_apply v shapeCasts_S128x1024_S128x1x1024 (ix3 a (0 : Fin 1) k) (ix2 a k)
    (by rewrite [Shape.rowMajor_val_two, Shape.rowMajor_val_three]; show a.val * 1024 + k.val = (a.val * 1 + 0) * 1024 + k.val; omega)

/-- A [32,1024] block given a leading unit axis and repeated over 128: entry (a, b, k) is the block's (b, k). -/
theorem cols_bcast_apply {α : Type} (u : S32x1024.Idx → α) (a : Fin 128) (b : Fin 32) (k : Fin 1024) :
    broadcastTo S128x32x1024 (shapeCast S1x32x1024 u shapeCasts_S32x1024_S1x32x1024) broadcasts_S1x32x1024_S128x32x1024 (ix3 a b k)
      = u (ix2 b k) := by
  refine (broadcastTo_apply _ broadcasts_S1x32x1024_S128x32x1024 (ix3 a b k) (ix3 (0 : Fin 1) b k) (fun c => match c with
    | ⟨0, _⟩ => by show 0 = if (1 : Nat) = 1 then 0 else a.val; rw [if_pos rfl]
    | ⟨1, _⟩ => by show b.val = if (32 : Nat) = 1 then 0 else b.val; rw [if_neg (by decide)]
    | ⟨2, _⟩ => by show k.val = if (1024 : Nat) = 1 then 0 else k.val; rw [if_neg (by decide)])).trans ?_
  exact shapeCast_apply u shapeCasts_S32x1024_S1x32x1024 (ix3 (0 : Fin 1) b k) (ix2 b k)
    (by rewrite [Shape.rowMajor_val_two, Shape.rowMajor_val_three]; show b.val * 1024 + k.val = (0 * 32 + b.val) * 1024 + k.val; omega)

/-- The sum over the middle axis of a [128,32,64] value, from the zero word: entry (a, o) is the sum over b of (a, b, o). -/
theorem lane_sum_apply (src : FVec Ideal S128x32x64 .f32) (hφ : FKind.Formats .f32)
    (hacc : (0x00000000#32 : BitVec 32) = 0x00000000#32) (a : Fin 128) (o : Fin 64) :
    multiReduction (F := Ideal) .add [1] S128x64 src 0x00000000#32 reduces_S128x32x64_S128x64 hφ hacc (ix2 a o)
      = ∑ b : Fin 32, src (ix3 a b o) := by
  refine (Ideal.multiReduction_add_single src 0x00000000#32 reduces_S128x32x64_S128x64 hφ hacc (ix2 a o)).trans ?_
  refine Finset.sum_congr rfl fun b _ => ?_
  exact congrArg src (funext fun c => Fin.ext (by match c with | ⟨0, _⟩ => rfl | ⟨1, _⟩ => rfl | ⟨2, _⟩ => rfl))

theorem step_pay (x0 : Vec Ideal S128x1024 .f32) (x1 : Vec Ideal S32x1024 .f32) (x2 : Vec Ideal S1024x64 .bf16)
    (s : Vec Ideal S128x64 .f32) (a : Fin 128) (o : Fin 64) :
    (k1_pay2 (F := Ideal) x0 x1 x2 s) (ix2 a o)
      = s (ix2 a o) + ∑ b : Fin 32, Ideal.exp (0 - ∑ k : Fin 1024, Cert.Spec.abs (x0 (ix2 a k) - x1 (ix2 b k)) * x2 (ix2 k o)) := by
  unfold k1_pay2
  simp only [shapeCast_self]
  refine congrArg (s (ix2 a o) + ·) ?_
  refine (lane_sum_apply _ _ _ a o).trans ?_
  refine Finset.sum_congr rfl fun b _ => ?_
  refine congrArg Ideal.exp ?_
  show Ideal.ofBits .f32 0x00000000#32 - shapeCast S128x32x64 _ shapeCasts_S4096x64_S128x32x64 (ix3 a b o) = _
  rw [Ideal.ofBits_zero_f32]
  refine congrArg (0 - ·) ?_
  refine (unflatten_apply _ a b o).trans ?_
  refine (matmul_dist_apply _ _ (flatRow a b) o).trans ?_
  refine Finset.sum_congr rfl fun k _ => ?_
  refine congrArg (· * x2 (ix2 k o)) ?_
  refine (flatten_apply _ a b k).trans ?_
  exact congrArg₂ (fun u v => Cert.Spec.abs (u - v)) (rows_bcast_apply x0 a b k) (cols_bcast_apply x1 a b k)

end Cert.KernelIdeal.KMath

end
-- ==== Proof.KernelIdeal.Value0.lean ====
/-
  What the projection region leaves in its output array, at the ideal instance: the write-backs of the four
  row blocks tile the array, and entry (i, k) is row i of the first input array against column k of the second.
-/
import proofs.«142424_j45286135169752_1_alg».proof.Proof.KernelIdeal.Region0
import proofs.«142424_j45286135169752_1_alg».proof.Proof.KernelIdeal.KMath
import proofs.«142424_j45286135169752_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The two arrays the region reads, as the region finds them. -/
abbrev xArr (c : Dev nD) : Vec Ideal S512x1024 .f32 := V c main_arg0
abbrev wArr (c : Dev nD) : Vec Ideal S1024x1024 .f32 := V c main_v0

/-- The zero offsets of a whole-block rectangle. -/
theorem hzero : (![0, 0] : Fin 2 → Nat) = fun _ => 0 := funext fun a => by fin_cases a <;> rfl

/-- The windows' index maps at each of the four grid points: the row block of the first input and of the output
    is the point's number, every column block is 0, and the second input's one block is (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has four points. -/
theorem N0 : cfg0.N = 4 := N_0

/-- Row p of the first input's block at point t is row 128·t + p of the array. -/
theorem xblk_apply (c : Dev nD) (t : Fin cfg0.N) (p : Fin 128) (r : Fin 1024) (hp : t.val * 128 + p.val < 512) :
    (iblk0 V c 0 t : Vec Ideal S128x1024 .f32) (ix2 p r) = xArr V c (ix2 (⟨t.val * 128 + p.val, hp⟩ : Fin 512) r) := by
  obtain ⟨e0, e1, -, -, -, -⟩ := idx_facts0 t
  unfold iblk0
  rw [View.read_apply]
  show V c main_arg0 _ = V c main_arg0 _
  congr 1
  funext a
  apply Fin.ext
  match a with
  | ⟨0, _⟩ => show win0_0.index t (0 : Fin 2) * 128 + 1 * p.val = t.val * 128 + p.val; omega
  | ⟨1, _⟩ => show win0_0.index t (1 : Fin 2) * 1024 + 1 * r.val = r.val; omega

/-- The second input's one block is the whole array. -/
theorem wblk_apply (c : Dev nD) (t : Fin cfg0.N) (r q : Fin 1024) :
    (iblk0 V c 1 t : Vec Ideal S1024x1024 .f32) (ix2 r q) = wArr V c (ix2 r q) := by
  obtain ⟨-, -, e2, e3, -, -⟩ := idx_facts0 t
  unfold iblk0
  rw [View.read_apply]
  show V c main_v0 _ = V c main_v0 _
  congr 1
  funext a
  apply Fin.ext
  match a with
  | ⟨0, _⟩ => show win0_1.index t (0 : Fin 2) * 1024 + 1 * r.val = r.val; omega
  | ⟨1, _⟩ => show win0_1.index t (1 : Fin 2) * 1024 + 1 * q.val = q.val; omega

/-- What the output array ends holding: at (i, k), row i of the first input against column k of the second. -/
abbrev G0 (c : Dev nD) : S512x1024.Idx → EReal :=
  fun idx => ∑ r : Fin 1024, xArr V c (ix2 (⟨(idx 0).val, idx2_lt0 idx⟩ : Fin 512) r) * wArr V c (ix2 r (⟨(idx 1).val, idx2_lt1 idx⟩ : Fin 1024))

/-- The body's payload at (p, q), once its two operands are known entry by entry. -/
theorem pay_point (x0 : Vec Ideal S128x1024 .f32) (x1 : Vec Ideal S1024x1024 .f32)
    (X : Vec Ideal S512x1024 .f32) (W : Vec Ideal S1024x1024 .f32) (a : Fin 512) (p : Fin 128) (q : Fin 1024)
    (h0 : ∀ r : Fin 1024, x0 (ix2 p r) = X (ix2 a r)) (h1 : ∀ r : Fin 1024, x1 (ix2 r q) = W (ix2 r q)) :
    (k0_pay1 (F := Ideal) x0 x1) (ix2 p q) = ∑ r : Fin 1024, X (ix2 a r) * W (ix2 r q) := by
  refine (KMath.proj_pay x0 x1 p q).trans ?_
  refine Finset.sum_congr rfl fun r _ => ?_
  rw [h0 r, h1 r]

/-- The payload of point t at entry y of the block: row 128·t + y₀ of the first input against column y₁ of the second. -/
theorem pay_at (c : Dev nD) (t : Fin cfg0.N) (y : S128x1024.Idx) (hy : t.val * 128 + (y 0).val < 512) :
    (k0_pay1 (F := Ideal) (iblk0 V c 0 t) (iblk0 V c 1 t)) y
      = ∑ r : Fin 1024, xArr V c (ix2 (⟨t.val * 128 + (y 0).val, hy⟩ : Fin 512) r) * wArr V c (ix2 r (⟨(y 1).val, idx2_lt1 y⟩ : Fin 1024)) := by
  obtain ⟨p, q, rfl⟩ : ∃ (p : Fin 128) (q : Fin 1024), y = ix2 p q := ⟨y 0, y 1, eq_ix2 y⟩
  exact pay_point _ _ (xArr V c) (wArr V c) ⟨t.val * 128 + p.val, hy⟩ p q
    (fun r => xblk_apply V c t p r hy) (fun r => wblk_apply V c t r q)

/-- What point t writes back is block t of `G0`. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hzero]
  simp only [View.ld_unit_zero (S := S128x1024) hzero, View.ld_unit_zero (S := S1024x1024) hzero]
  obtain ⟨-, -, -, -, e4, e5⟩ := idx_facts0 t
  have hN : cfg0.N = 4 := N0
  have ht : t.val < 4 := hN ▸ t.isLt
  funext j
  have hj0 : (j 0).val < 128 := (j 0).isLt
  have hj1 : (j 1).val < 1024 := (j 1).isLt
  show (k0_pay1 (F := Ideal) (iblk0 V c 0 t) (iblk0 V c 1 t)) j = G0 V c (((cfg0.win 2).blk t).view.emb j)
  refine (pay_at V c t j (by omega)).trans ?_
  refine Finset.sum_congr rfl fun r _ => ?_
  have ea : (⟨t.val * 128 + (j 0).val, by omega⟩ : Fin 512)
      = ⟨((((cfg0.win 2).blk t).view.emb j) 0).val, idx2_lt0 _⟩ := Fin.ext (by
    show t.val * 128 + (j 0).val = win0_2.index t (0 : Fin 2) * 128 + 1 * (j 0).val; omega)
  have eb : (⟨(j 1).val, hj1⟩ : Fin 1024)
      = ⟨((((cfg0.win 2).blk t).view.emb j) 1).val, idx2_lt1 _⟩ := Fin.ext (by
    show (j 1).val = win0_2.index t (1 : Fin 2) * 1024 + 1 * (j 1).val; omega)
  rw [ea, eb]

/-- The four row blocks tile the output array: an index is in the block of the point its row falls in, row / 128. -/
theorem cover0 (i : S512x1024.Idx) :
    ∃ t : Fin cfg0.N, (cfg0.win 2).flush t = true ∧ i ∈ ((cfg0.win 2).blk t).view.set := by
  have hN : cfg0.N = 4 := N0
  have hi0 : (i 0).val < 512 := idx2_lt0 i
  have hi1 : (i 1).val < 1024 := idx2_lt1 i
  have hlt : (i 0).val / 128 < cfg0.N := by rw [hN]; omega
  obtain ⟨t, htv⟩ : ∃ t : Fin cfg0.N, t.val = (i 0).val / 128 := ⟨⟨(i 0).val / 128, hlt⟩, rfl⟩
  refine ⟨t, flush0_2 t, ?_⟩
  obtain ⟨-, -, -, -, e4, e5⟩ := idx_facts0 t
  show i ∈ ((View.whole main_v1).slice (win0_2.rect t)).set
  rw [View.set_slice_whole, Rect.mem_set_unit]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 1024 ≤ (i 1).val ∧ (i 1).val < win0_2.index t (1 : Fin 2) * 1024 + 1024
    omega

theorem final0 (c : Dev nD) (i : Fin 512) (k : Fin 1024) :
    (show Vec Ideal S512x1024 .f32 from (dat0 V c).arrAt 2 cfg0.N) (ix2 i k)
      = ∑ r : Fin 1024, xArr V c (ix2 i r) * wArr V c (ix2 r k) := by
  have h := (dat0 V c).arrAt_eq_of_cover 2 (G0 V c) (fun t _ => flushed0_eq V c t) (cover0)
  exact congrFun h (ix2 i k)

end Cert.KernelIdeal.Hand

end
-- ==== Proof.KernelIdeal.Value1a.lean ====
/-
  The pairwise-distance region's output array after the run, block by block: the output block of row block ib is
  written back once, at the last of its 16 column blocks, with the accumulator's contents there; the four
  write-backs tile the array.
-/
import proofs.«142424_j45286135169752_1_alg».proof.Proof.KernelIdeal.Region1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

/-- The last point of row block `ib`: column block 15. -/
theorem lastPt_lt (ib : Fin 4) : 16 * ib.val + 15 < cfg1.N := by
  have : cfg1.N = 64 := N_1
  have := ib.isLt
  omega

/-- The accumulator at equal point numbers is the same vector. -/
theorem accAt_congr (c : Dev nD) {n n' : ℕ} (e : n = n') (h : n < cfg1.N) (h' : n' < cfg1.N) :
    accAt V c n h = accAt V c n' h' := by
  subst e; rfl

/-- The output window's block index at every point: the row block on the rows, 0 on the columns. -/
theorem idx_facts1_3 : ∀ t : Fin cfg1.N, win1_3.index t (0 : Fin 2) = t.val / 16 ∧ win1_3.index t (1 : Fin 2) = 0 :=
  (by decide +kernel : ∀ t : Fin grid1.N, win1_3.index t (0 : Fin 2) = t.val / 16 ∧ win1_3.index t (1 : Fin 2) = 0)

/-- The array the four write-backs piece together: at row `r` and column `o`, the accumulator after the last point
    of row block `r / 128`, read at row `r % 128` of the block and column `o`. -/
def G1 (c : Dev nD) : Vec F S512x64 .f32 := fun idx =>
  accAt V c (16 * ((idx 0).val / 128) + 15)
    (by have h0 : (idx 0).val < 512 := idx2_lt0 idx; have hN : cfg1.N = 64 := N_1; omega)
    (ix2 (⟨(idx 0).val % 128, Nat.mod_lt _ (by decide)⟩ : Fin 128) (idx 1 : Fin 64))

/-- That array at an index, from the arithmetic of its coordinates. -/
theorem G1_apply (c : Dev nD) (idx : S512x64.Idx) (n : ℕ) (hn : n < cfg1.N) (x : S128x64.Idx)
    (e : 16 * ((idx 0).val / 128) + 15 = n) (e0 : (x 0).val = (idx 0).val % 128) (e1 : (x 1).val = (idx 1).val) :
    G1 V c idx = accAt V c n hn x := by
  unfold G1
  subst e
  congr 1
  funext a
  apply Fin.ext
  match a with
  | ⟨0, _⟩ => exact e0.symm
  | ⟨1, _⟩ => exact e1.symm

/-- What a writing point writes back is its block of that array. -/
theorem flushed1_3_eq (c : Dev nD) (t : Fin cfg1.N) (hf : (cfg1.win 3).flush t = true) :
    (dat1 V c).flushed 3 t = ((cfg1.win 3).blk t).view.read (Elt F) (G1 V c) := by
  have h15 : t.val % 16 = 15 := (flush1_3 t).mp hf
  obtain ⟨e0, e1⟩ := idx_facts1_3 t
  show (cfg1.win 3).cut (grid1.coords t) ((dat1 V c).after 3 t) = _
  rw [after1_3]
  funext y
  show accAt V c t.val t.isLt y = G1 V c (((cfg1.win 3).blk t).view.emb y)
  have hy0 : (y 0).val < 128 := (y 0).isLt
  have hy1 : (y 1).val < 64 := (y 1).isLt
  have hN : cfg1.N = 64 := N_1
  have htl := t.isLt
  have m0 : ((((cfg1.win 3).blk t).view.emb y) 0).val = t.val / 16 * 128 + (y 0).val := by
    show win1_3.index t (0 : Fin 2) * 128 + 1 * (y 0).val = _
    rw [e0]; omega
  have m1 : ((((cfg1.win 3).blk t).view.emb y) 1).val = (y 1).val := by
    show win1_3.index t (1 : Fin 2) * 64 + 1 * (y 1).val = _
    rw [e1]; omega
  refine (G1_apply V c _ t.val t.isLt y ?_ ?_ ?_).symm
  · rw [m0]; omega
  · rw [m0]; omega
  · rw [m1]

theorem final1_acc (c : Dev nD) (ib : Fin 4) (a : Fin 128) (o : Fin 64) :
    (show Vec F S512x64 .f32 from (dat1 V c).arrAt 3 cfg1.N) (ix2 (⟨ib.val * 128 + a.val, by have := ib.isLt; have := a.isLt; omega⟩ : Fin 512) o)
      = accAt V c (16 * ib.val + 15) (lastPt_lt ib) (ix2 a o) := by
  have hN : cfg1.N = 64 := N_1
  have hib := ib.isLt
  have ha := a.isLt
  have ho := o.isLt
  -- the one point whose block covers the row: the last column block of row block `ib`
  have hf : (cfg1.win 3).flush (⟨16 * ib.val + 15, lastPt_lt ib⟩ : Fin cfg1.N) = true :=
    (flush1_3 _).mpr (by show (16 * ib.val + 15) % 16 = 15; omega)
  obtain ⟨e0, e1⟩ := idx_facts1_3 (⟨16 * ib.val + 15, lastPt_lt ib⟩ : Fin cfg1.N)
  have e0' : win1_3.index (⟨16 * ib.val + 15, lastPt_lt ib⟩ : Fin cfg1.N) (0 : Fin 2) = ib.val := by
    rw [e0]; show (16 * ib.val + 15) / 16 = ib.val; omega
  have hi : (ix2 (⟨ib.val * 128 + a.val, by omega⟩ : Fin 512) o : S512x64.Idx)
      ∈ ((cfg1.win 3).blk (⟨16 * ib.val + 15, lastPt_lt ib⟩ : Fin cfg1.N)).view.set := by
    show _ ∈ ((View.whole main_v11).slice (win1_3.rect (⟨16 * ib.val + 15, lastPt_lt ib⟩ : Fin cfg1.N))).set
    rw [View.set_slice_whole, Rect.mem_set_unit]
    intro ax
    match ax with
    | ⟨0, _⟩ =>
      show win1_3.index (⟨16 * ib.val + 15, lastPt_lt ib⟩ : Fin cfg1.N) (0 : Fin 2) * 128 ≤ ib.val * 128 + a.val
        ∧ ib.val * 128 + a.val < win1_3.index (⟨16 * ib.val + 15, lastPt_lt ib⟩ : Fin cfg1.N) (0 : Fin 2) * 128 + 128
      rw [e0']; omega
    | ⟨1, _⟩ =>
      show win1_3.index (⟨16 * ib.val + 15, lastPt_lt ib⟩ : Fin cfg1.N) (1 : Fin 2) * 64 ≤ o.val
        ∧ o.val < win1_3.index (⟨16 * ib.val + 15, lastPt_lt ib⟩ : Fin cfg1.N) (1 : Fin 2) * 64 + 64
      rw [e1]; omega
  refine ((dat1 V c).arrAt_apply_of_mem 3 (G1 V c) (flushed1_3_eq V c) cfg1.N
    (⟨16 * ib.val + 15, lastPt_lt ib⟩ : Fin cfg1.N) _ (lastPt_lt ib) hf hi).trans ?_
  refine G1_apply V c _ _ _ _ ?_ ?_ ?_
  · show 16 * ((ib.val * 128 + a.val) / 128) + 15 = 16 * ib.val + 15
    omega
  · show a.val = (ib.val * 128 + a.val) % 128
    omega
  · rfl

end Cert.KernelIdeal.Hand

end
-- ==== Proof.KernelIdeal.Value1b.lean ====
/-
  The accumulator of the pairwise-distance region, at the ideal instance, after column block j of row block ib: the
  sum of the contributions of column blocks 0 … j, each the sum over the block's 32 rows of
  exp(0 − Σ_k |M[128·ib + a, k] − M[32·jb + b, k]| · g[k, o]).
-/
import proofs.«142424_j45286135169752_1_alg».proof.Proof.KernelIdeal.Region1
import proofs.«142424_j45286135169752_1_alg».proof.Proof.KernelIdeal.KMath
import proofs.«142424_j45286135169752_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The two arrays the region reads, as the region finds them: the projected matrix and the group matrix. -/
abbrev mArr (c : Dev nD) : Vec Ideal S512x1024 .f32 := V c main_v1
abbrev gArr (c : Dev nD) : Vec Ideal S1024x64 .bf16 := V c main_v10

theorem pt_lt (ib : Fin 4) (j : Fin 16) : 16 * ib.val + j.val < cfg1.N := by
  have : cfg1.N = 64 := N_1
  have := ib.isLt
  have := j.isLt
  omega

/-- The block indices of the three input windows at a point, decided once over the grid: the row block of the first is the
    point's quotient by 16, the row block of the second its remainder, the third is the whole array. -/
theorem idx_facts1 : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = 0 ∧ win1_2.index t (1 : Fin 2) = 0 :=
  (by decide +kernel : ∀ t : Fin grid1.N, _)

/-- The first block at a point of row block ib: entry (a, k) is the projected matrix at row 128·ib + a, column k. -/
theorem read_rows (c : Dev nD) (t : Fin cfg1.N) (ib : Fin 4) (hib : t.val / 16 = ib.val) (a : Fin 128) (k : Fin 1024) :
    iblk1 V c 0 t (ix2 a k) = mArr V c (ix2 (Cert.Spec.row128 ib a) k) := by
  unfold iblk1
  show mArr V c (((cfg1.win 0).blk t).view.emb (ix2 a k)) = mArr V c (ix2 (Cert.Spec.row128 ib a) k)
  refine congrArg (mArr V c) (funext fun d => Fin.ext ?_)
  obtain ⟨e0, e1, -⟩ := idx_facts1 t
  match d with
  | ⟨0, _⟩ => show win1_0.index t (0 : Fin 2) * 128 + 1 * a.val = ib.val * 128 + a.val; omega
  | ⟨1, _⟩ => show win1_0.index t (1 : Fin 2) * 1024 + 1 * k.val = k.val; omega

/-- The second block at a point of column block jb: entry (b, k) is the projected matrix at row 32·jb + b, column k. -/
theorem read_cols (c : Dev nD) (t : Fin cfg1.N) (jb : Fin 16) (hjb : t.val % 16 = jb.val) (b : Fin 32) (k : Fin 1024) :
    iblk1 V c 1 t (ix2 b k) = mArr V c (ix2 (Cert.Spec.row32 jb b) k) := by
  unfold iblk1
  show mArr V c (((cfg1.win 1).blk t).view.emb (ix2 b k)) = mArr V c (ix2 (Cert.Spec.row32 jb b) k)
  refine congrArg (mArr V c) (funext fun d => Fin.ext ?_)
  obtain ⟨-, -, e2, e3, -⟩ := idx_facts1 t
  match d with
  | ⟨0, _⟩ => show win1_1.index t (0 : Fin 2) * 32 + 1 * b.val = jb.val * 32 + b.val; omega
  | ⟨1, _⟩ => show win1_1.index t (1 : Fin 2) * 1024 + 1 * k.val = k.val; omega

/-- The third block at any point is the whole group matrix. -/
theorem read_group (c : Dev nD) (t : Fin cfg1.N) (k : Fin 1024) (o : Fin 64) :
    iblk1 V c 2 t (ix2 k o) = gArr V c (ix2 k o) := by
  unfold iblk1
  show gArr V c (((cfg1.win 2).blk t).view.emb (ix2 k o)) = gArr V c (ix2 k o)
  refine congrArg (gArr V c) (funext fun d => Fin.ext ?_)
  obtain ⟨-, -, -, -, e4, e5⟩ := idx_facts1 t
  match d with
  | ⟨0, _⟩ => show win1_2.index t (0 : Fin 2) * 1024 + 1 * k.val = k.val; omega
  | ⟨1, _⟩ => show win1_2.index t (1 : Fin 2) * 64 + 1 * o.val = o.val; omega

/-- One step at a point of row block ib and column block jb, at (a, o): the accumulator there plus that column block's
    contribution for row 128·ib + a. -/
theorem stepAt_apply (c : Dev nD) (t : Fin cfg1.N) (ib : Fin 4) (jb : Fin 16) (hib : t.val / 16 = ib.val) (hjb : t.val % 16 = jb.val)
    (s : Vec Ideal S128x64 .f32) (a : Fin 128) (o : Fin 64) :
    stepAt V c t s (ix2 a o)
      = s (ix2 a o) + Cert.Spec.partK (fun i k => mArr V c (ix2 i k)) (fun k o => gArr V c (ix2 k o)) (Cert.Spec.row128 ib a) jb o := by
  unfold stepAt
  refine (KMath.step_pay _ _ _ s a o).trans ?_
  refine congrArg (s (ix2 a o) + ·) ?_
  unfold Cert.Spec.partK
  refine Finset.sum_congr rfl fun b _ => ?_
  refine congrArg (fun z => Ideal.exp (0 - z)) ?_
  refine Finset.sum_congr rfl fun k _ => ?_
  rw [read_rows V c t ib hib a k, read_cols V c t jb hjb b k, read_group V c t k o]

/-- The accumulator does not depend on how its point is written. -/
theorem accAt_castI (c : Dev nD) {n n' : ℕ} (e : n = n') (h : n < cfg1.N) (h' : n' < cfg1.N) :
    accAt V c n h = accAt V c n' h' := by
  subst e; rfl

/-- A sum over the 16 column blocks guarded by "at most 0" is its first term. -/
theorem guarded_sum_zero (f : Fin 16 → EReal) :
    (∑ jb : Fin 16, if jb.val ≤ 0 then f jb else 0) = f ⟨0, by decide⟩ := by
  have h : ∀ jb : Fin 16, (if jb.val ≤ 0 then f jb else 0) = if jb = ⟨0, by decide⟩ then f jb else 0 := fun jb =>
    if_congr ⟨fun h => Fin.ext (Nat.le_zero.mp h), fun h => by rw [h]⟩ rfl rfl
  rw [Finset.sum_congr rfl fun jb _ => h jb, Finset.sum_ite_eq', if_pos (Finset.mem_univ _)]

/-- A sum over the 16 column blocks guarded by "at most n + 1" is the one guarded by "at most n" plus term n + 1. -/
theorem guarded_sum_succ (f : Fin 16 → EReal) (n : ℕ) (hn : n + 1 < 16) :
    (∑ jb : Fin 16, if jb.val ≤ n + 1 then f jb else 0)
      = (∑ jb : Fin 16, if jb.val ≤ n then f jb else 0) + f ⟨n + 1, hn⟩ := by
  have h : ∀ jb : Fin 16, (if jb.val ≤ n + 1 then f jb else 0)
      = (if jb.val ≤ n then f jb else 0) + (if jb = ⟨n + 1, hn⟩ then f jb else 0) := by
    intro jb
    by_cases h1 : jb.val ≤ n
    · have h3 : jb ≠ ⟨n + 1, hn⟩ := fun e => by have := congrArg Fin.val e; simp only at this; omega
      rw [if_pos h1, if_pos (by omega), if_neg h3, add_zero]
    · by_cases h2 : jb.val = n + 1
      · rw [if_neg h1, if_pos (by omega), if_pos (Fin.ext h2), zero_add]
      · have h3 : jb ≠ ⟨n + 1, hn⟩ := fun e => h2 (congrArg Fin.val e)
        rw [if_neg h1, if_neg (by omega), if_neg h3, add_zero]
  rw [Finset.sum_congr rfl fun jb _ => h jb, Finset.sum_add_distrib, Finset.sum_ite_eq', if_pos (Finset.mem_univ _)]

/-- The accumulator after point 16·ib + n, by induction on the column block n. -/
theorem accAt_sum_aux (c : Dev nD) (ib : Fin 4) (a : Fin 128) (o : Fin 64) :
    ∀ (n : ℕ) (hn : n < 16) (h : 16 * ib.val + n < cfg1.N),
      accAt V c (16 * ib.val + n) h (ix2 a o)
        = ∑ jb : Fin 16, if jb.val ≤ n then
            Cert.Spec.partK (fun i k => mArr V c (ix2 i k)) (fun k o => gArr V c (ix2 k o)) (Cert.Spec.row128 ib a) jb o else 0 := by
  intro n
  induction n with
  | zero =>
    intro hn h
    have e : accAt V c (16 * ib.val + 0) h = stepAt V c ⟨16 * ib.val + 0, h⟩ (k1_pay1 (F := Ideal)) :=
      accAt_reset V c ⟨16 * ib.val + 0, h⟩ (by show (16 * ib.val + 0) % 16 = 0; omega)
    rw [e, stepAt_apply V c ⟨16 * ib.val + 0, h⟩ ib ⟨0, hn⟩ (by show (16 * ib.val + 0) / 16 = ib.val; omega)
      (by show (16 * ib.val + 0) % 16 = 0; omega) _ a o, KMath.zero_pay, zero_add, guarded_sum_zero]
  | succ n ih =>
    intro hn h
    have h' : 16 * ib.val + n < cfg1.N := by omega
    have e : accAt V c (16 * ib.val + (n + 1)) h
        = stepAt V c ⟨16 * ib.val + (n + 1), h⟩ (accAt V c (16 * ib.val + (n + 1) - 1) (Nat.lt_of_le_of_lt (Nat.sub_le _ _) h)) :=
      accAt_acc V c ⟨16 * ib.val + (n + 1), h⟩ (by show ¬ (16 * ib.val + (n + 1)) % 16 = 0; omega)
    rw [e, stepAt_apply V c ⟨16 * ib.val + (n + 1), h⟩ ib ⟨n + 1, hn⟩ (by show (16 * ib.val + (n + 1)) / 16 = ib.val; omega)
      (by show (16 * ib.val + (n + 1)) % 16 = n + 1; omega) _ a o,
      accAt_castI V c (show 16 * ib.val + (n + 1) - 1 = 16 * ib.val + n by omega) _ h', ih (by omega) h', guarded_sum_succ _ n hn]

theorem accAt_sum (c : Dev nD) (ib : Fin 4) (j : Fin 16) (a : Fin 128) (o : Fin 64) :
    accAt V c (16 * ib.val + j.val) (pt_lt ib j) (ix2 a o)
      = ∑ jb : Fin 16, if jb.val ≤ j.val then
          Cert.Spec.partK (fun i k => mArr V c (ix2 i k)) (fun k o => gArr V c (ix2 k o)) (Cert.Spec.row128 ib a) jb o else 0 := by
  exact accAt_sum_aux V c ib a o j.val j.isLt (pt_lt ib j)

end Cert.KernelIdeal.Hand

end
-- ==== Proof.SpecLaws.lean ====
/-
  The laws that join the kernel's arrangement of the sums to the reference's: the product with the 0/1 group matrix
  is the sum over the group's 16 columns; |a − b| = |b − a| on the extended reals; 0 − x = −x; a sum over 512 rows is the
  sum over 16 blocks of 32 rows.
-/
import proofs.«142424_j45286135169752_1_alg».proof.Proof.Spec

noncomputable section

namespace Cert.Spec

open Idealize.ShloMosaic

theorem abs_sub_comm (a b : EReal) : abs (a - b) = abs (b - a) := by
  induction a with
  | bot => induction b <;> simp [abs]
  | top => induction b <;> simp [abs]
  | coe x =>
    induction b with
    | bot => simp [abs]
    | top => simp [abs]
    | coe y =>
      unfold abs
      rw [← EReal.coe_sub, ← EReal.coe_sub, ← EReal.coe_neg, ← EReal.coe_neg, neg_sub, neg_sub, max_comm]

theorem zero_sub_eq_neg (x : EReal) : (0 : EReal) - x = -x := by
  rw [sub_eq_add_neg, zero_add]

/-- The product with the 0/1 group matrix picks the group's 16 columns. -/
theorem group_sum (d : Fin 1024 → EReal) (o : Fin 64) :
    ∑ k : Fin 1024, d k * gind k o = ∑ k' : Fin 16, d (col o k') := by
  rw [← Equiv.sum_comp (finProdFinEquiv : Fin 64 × Fin 16 ≃ Fin 1024), Fintype.sum_prod_type]
  rw [Finset.sum_eq_single o]
  · refine Finset.sum_congr rfl fun k' _ => ?_
    have hk : (finProdFinEquiv (o, k') : Fin 1024) = col o k' := by
      apply Fin.ext
      simp [finProdFinEquiv, col]
      omega
    have hg : gind (col o k') o = 1 := by
      have hlt := k'.isLt
      have h : (col o k').val / 16 = o.val := by
        show (o.val * 16 + k'.val) / 16 = o.val
        omega
      unfold gind
      exact if_pos h
    rw [hk, hg, mul_one]
  · intro o' _ ho'
    refine Finset.sum_eq_zero fun k' _ => ?_
    have hg : gind (finProdFinEquiv (o', k') : Fin 1024) o = 0 := by
      have hlt := k'.isLt
      have hne : o'.val ≠ o.val := fun h => ho' (Fin.ext h)
      have h : ¬ ((finProdFinEquiv (o', k') : Fin 1024).val / 16 = o.val) := by
        show ¬ ((k'.val + 16 * o'.val) / 16 = o.val)
        omega
      unfold gind
      exact if_neg h
    rw [hg, mul_zero]
  · intro h
    exact absurd (Finset.mem_univ o) h

/-- A sum over the 512 rows is the sum over 16 blocks of 32 rows. -/
theorem sum_rows32 (f : Fin 512 → EReal) : ∑ j : Fin 512, f j = ∑ jb : Fin 16, ∑ b : Fin 32, f (row32 jb b) := by
  rw [← Equiv.sum_comp (finProdFinEquiv : Fin 16 × Fin 32 ≃ Fin 512), Fintype.sum_prod_type]
  refine Finset.sum_congr rfl fun jb _ => Finset.sum_congr rfl fun b _ => ?_
  congr 1
  apply Fin.ext
  simp [finProdFinEquiv, row32]
  omega

/-- One accumulation step, with the 0/1 matrix in place, is the reference's partial sum over the block's 32 rows. -/
theorem partK_eq (M : Fin 512 → Fin 1024 → EReal) (i : Fin 512) (jb : Fin 16) (o : Fin 64) :
    partK M gind i jb o = ∑ b : Fin 32, Ideal.exp (-(dist M i (row32 jb b) o)) := by
  unfold partK dist
  refine Finset.sum_congr rfl fun b _ => ?_
  rw [zero_sub_eq_neg, group_sum (fun k => abs (M i k - M (row32 jb b) k)) o]
  congr 2
  exact Finset.sum_congr rfl fun k _ => abs_sub_comm _ _

/-- The 16 accumulation steps of a row block add up to the feature. -/
theorem feat_eq_sum_partK (M : Fin 512 → Fin 1024 → EReal) (i : Fin 512) (o : Fin 64) :
    feat M i o = ∑ jb : Fin 16, partK M gind i jb o := by
  unfold feat
  rw [sum_rows32]
  exact Finset.sum_congr rfl fun jb _ => (partK_eq M i jb o).symm

end Cert.Spec

end
-- ==== Proof.RefValue.lean ====
/-
  The reference's features stage is the specification's feature of the projected matrix: read one operation at a
  time, the stage at (i, o) is 0 + Σ_j exp(−(0 + Σ_k |M[j, 16·o+k] − M[i, 16·o+k]|)) with M = x · (flattened weights).
-/
import proofs.«142424_j45286135169752_1_alg».proof.Proof.Gen.ReferenceIdeal.Run
import proofs.«142424_j45286135169752_1_alg».proof.Proof.Gen.ReferenceIdeal.Read
import proofs.«142424_j45286135169752_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The projected matrix, as the specification writes it. -/
abbrev M (x0 : (⟨S512x1024, .f32⟩ : BufTy).Contents (Elt Ideal)) (x1 : (⟨S1024x64x16, .f32⟩ : BufTy).Contents (Elt Ideal)) :
    Fin 512 → Fin 1024 → EReal :=
  Cert.Spec.proj (fun i r => x0 (ix2 i r)) (Cert.Spec.unflat (fun r q k => x1 (ix3 r q k)))

/-- The contraction stage at (a, c) is the projected matrix's entry: the flat weights' column c is entry (c / 16, c % 16)
    of the trailing axes, since (1024·r + c) / 1024 = r, (1024·r + c) / 16 % 64 = c / 16 and (1024·r + c) % 16 = c % 16. -/
theorem v1_eq (x0 : (⟨S512x1024, .f32⟩ : BufTy).Contents (Elt Ideal)) (x1 : (⟨S1024x64x16, .f32⟩ : BufTy).Contents (Elt Ideal))
    (a : Fin 512) (c : Fin 1024) :
    val_main_v1 (F := Ideal) x0 x1 (ix2 a c) = M x0 x1 a c := by
  rw [val_main_v1_apply]
  show _ = ∑ r : Fin 1024, x0 (ix2 a r) * Cert.Spec.unflat (fun r q k => x1 (ix3 r q k)) r c
  refine Finset.sum_congr rfl fun r _ => ?_
  rw [val_main_v0_apply]
  have e0 : lidx_main_v1 (ix2 a c) r = ix2 a r := funext fun d => Fin.ext (by
    match d with
    | ⟨0, _⟩ => rfl
    | ⟨1, _⟩ => rfl)
  have e1 : idx_main_v0 (ridx_main_v1 (ix2 a c) r)
      = ix3 r (⟨c.val / 16, by have := c.isLt; omega⟩ : Fin 64) (⟨c.val % 16, by omega⟩ : Fin 16) := funext fun d => Fin.ext (by
    have hr : r.val < 1024 := r.isLt
    have hc : c.val < 1024 := c.isLt
    match d with
    | ⟨0, _⟩ => show (r.val * 1024 + c.val) / 1024 = r.val; omega
    | ⟨1, _⟩ => show (r.val * 1024 + c.val) / 16 % 64 = c.val / 16; omega
    | ⟨2, _⟩ => show (r.val * 1024 + c.val) % 16 = c.val % 16; omega)
  rw [e0, e1]
  rfl

/-- The regrouped stage at (a, q, k) is the projected matrix at row a and column 16·q + k:
    ((64·a + q)·16 + k) / 1024 = a and ((64·a + q)·16 + k) % 1024 = 16·q + k. -/
theorem v2_eq (x0 : (⟨S512x1024, .f32⟩ : BufTy).Contents (Elt Ideal)) (x1 : (⟨S1024x64x16, .f32⟩ : BufTy).Contents (Elt Ideal))
    (a : Fin 512) (q : Fin 64) (k : Fin 16) :
    val_main_v2 (F := Ideal) x0 x1 (ix3 a q k) = M x0 x1 a (Cert.Spec.col q k) := by
  rw [val_main_v2_apply]
  have e : idx_main_v2 (ix3 a q k) = ix2 a (Cert.Spec.col q k) := funext fun d => Fin.ext (by
    have ha : a.val < 512 := a.isLt
    have hq : q.val < 64 := q.isLt
    have hk : k.val < 16 := k.isLt
    match d with
    | ⟨0, _⟩ => show ((a.val * 64 + q.val) * 16 + k.val) / 1024 = a.val; omega
    | ⟨1, _⟩ => show ((a.val * 64 + q.val) * 16 + k.val) % 1024 = q.val * 16 + k.val; omega)
  rw [e, v1_eq]

theorem features_eq (x0 : (⟨S512x1024, .f32⟩ : BufTy).Contents (Elt Ideal)) (x1 : (⟨S1024x64x16, .f32⟩ : BufTy).Contents (Elt Ideal))
    (i : Fin 512) (o : Fin 64) :
    val_main_v12 (F := Ideal) x0 x1 (ix2 i o)
      = Cert.Spec.feat (Cert.Spec.proj (fun i r => x0 (ix2 i r)) (Cert.Spec.unflat (fun r q k => x1 (ix3 r q k)))) i o := by
  rw [val_main_v12_apply, val_main_cst_0_apply, Ideal.ofBits_def, Ideal.ofBits_zero_f32, zero_add]
  show _ = ∑ j : Fin 512, Ideal.exp (-(Cert.Spec.dist (M x0 x1) i j o))
  refine Finset.sum_congr rfl fun j _ => ?_
  rw [val_main_v11_apply, val_main_v10_apply, val_main_v9_apply, val_main_cst_apply, Ideal.ofBits_def,
    Ideal.ofBits_zero_f32, zero_add, Ideal.hostUnary_exp_def, Ideal.hostNegf_def, Ideal.negf_def]
  refine congrArg (fun t => Ideal.exp (-t)) ?_
  show _ = ∑ k : Fin 16, Cert.Spec.abs (M x0 x1 j (Cert.Spec.col o k) - M x0 x1 i (Cert.Spec.col o k))
  refine Finset.sum_congr rfl fun k _ => ?_
  rw [val_main_v8_apply, val_main_v7_apply, val_main_v5_apply, val_main_v3_apply, val_main_v6_apply, val_main_v4_apply]
  -- the summed row j sits on axis 1 and is read by the left operand; the kept row i on axis 0, by the right one
  have e5 : idx_main_v3 (idx_main_v5 (idx_main_v9 (idx_main_v12 (ix2 i o) j) k)) = ix3 j o k := funext fun d => Fin.ext (by
    match d with
    | ⟨0, _⟩ => rfl
    | ⟨1, _⟩ => rfl
    | ⟨2, _⟩ => rfl)
  have e6 : idx_main_v4 (idx_main_v6 (idx_main_v9 (idx_main_v12 (ix2 i o) j) k)) = ix3 i o k := funext fun d => Fin.ext (by
    match d with
    | ⟨0, _⟩ => rfl
    | ⟨1, _⟩ => rfl
    | ⟨2, _⟩ => rfl)
  rw [e5, e6, v2_eq, v2_eq, Ideal.hostAbsf_def, Ideal.absf_def, Ideal.subf_def]
  rfl

end Cert.ReferenceIdeal.RefValue

end
-- ==== Proof.KernelIdeal.Assemble.lean ====
/-
  The two programs' results are one array. The second region finds the projected matrix M = x · (flattened weights)
  and the 0/1 group matrix; its output at (i, o) is the sum over the 16 column blocks of the accumulation steps, each
  the sum over 32 rows j of exp(0 − Σ_k |M i k − M j k| · g k o); with g the group matrix that is
  Σ_j exp(−Σ_{k<16} |M j (16·o+k) − M i (16·o+k)|), the reference's features stage; and both programs end by
  concatenating the first argument with the features.
-/
import proofs.«142424_j45286135169752_1_alg».proof.Proof.KernelIdeal.Bounds
import proofs.«142424_j45286135169752_1_alg».proof.Proof.KernelIdeal.Value0
import proofs.«142424_j45286135169752_1_alg».proof.Proof.KernelIdeal.Value1a
import proofs.«142424_j45286135169752_1_alg».proof.Proof.KernelIdeal.Value1b
import proofs.«142424_j45286135169752_1_alg».proof.Proof.SpecLaws
import proofs.«142424_j45286135169752_1_alg».proof.Proof.RefValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-- The arguments as launched, as plain functions of their coordinates. -/
abbrev argX (c : Dev nD) : Fin 512 → Fin 1024 → EReal :=
  fun i r => (m ((c : Thread nD τ).loc main_arg0) : Vec Ideal S512x1024 .f32) (ix2 i r)
abbrev argT (c : Dev nD) : Fin 1024 → Fin 64 → Fin 16 → EReal :=
  fun r q j => (m ((c : Thread nD τ).loc main_arg1) : Vec Ideal S1024x64x16 .f32) (ix3 r q j)

/-- The projected matrix of the specification, of the arguments as launched. -/
abbrev specM (c : Dev nD) : Fin 512 → Fin 1024 → EReal := Cert.Spec.proj (argX m c) (Cert.Spec.unflat (argT m c))

/-- The second region finds the specification's projected matrix. -/
theorem M_eq (c : Dev nD) (i : Fin 512) (k : Fin 1024) : mArr (VR1 m) c (ix2 i k) = specM m c i k := by
  show (VR1 m c main_v1 : Vec Ideal S512x1024 .f32) (ix2 i k) = _
  rw [VR1_v1 m c]
  refine (final0 (VR0 m) c i k).trans ?_
  unfold specM Cert.Spec.proj
  refine Finset.sum_congr rfl fun r _ => ?_
  have hx : xArr (VR0 m) c (ix2 i r) = argX m c i r := by
    show (VR0 m c main_arg0 : Vec Ideal S512x1024 .f32) (ix2 i r) = _
    rw [VR0_arg0 m c]
  have hw : wArr (VR0 m) c (ix2 r k) = Cert.Spec.unflat (argT m c) r k := VR0_v0_apply m c r k
  rw [hx, hw]

/-- The second region finds the 0/1 group matrix. -/
theorem g_eq (c : Dev nD) (k : Fin 1024) (o : Fin 64) : gArr (VR1 m) c (ix2 k o) = Cert.Spec.gind k o :=
  VR1_v10_apply m c k o

/-- The second region's output array is the specification's feature of the projected matrix. -/
theorem feat_eq (c : Dev nD) (i : Fin 512) (o : Fin 64) :
    ((dat1 (VR1 m) c).arrAt 3 cfg1.N : Vec Ideal S512x64 .f32) (ix2 i o) = Cert.Spec.feat (specM m c) i o := by
  have hi : i.val < 512 := i.isLt
  let ib : Fin 4 := ⟨i.val / 128, by omega⟩
  let a : Fin 128 := ⟨i.val % 128, Nat.mod_lt _ (by decide)⟩
  have hrow : (⟨ib.val * 128 + a.val, by have := ib.isLt; have := a.isLt; omega⟩ : Fin 512) = i :=
    Fin.ext (by show i.val / 128 * 128 + i.val % 128 = i.val; omega)
  have hrow' : Cert.Spec.row128 ib a = i := Fin.ext (by show i.val / 128 * 128 + i.val % 128 = i.val; omega)
  have h1 := final1_acc (VR1 m) c ib a o
  rw [hrow] at h1
  refine h1.trans ?_
  have h2 := accAt_sum (VR1 m) c ib (15 : Fin 16) a o
  refine (show accAt (VR1 m) c (16 * ib.val + 15) (lastPt_lt ib) (ix2 a o) = _ from h2).trans ?_
  rw [Cert.Spec.feat_eq_sum_partK (specM m c) i o]
  refine Finset.sum_congr rfl fun jb _ => ?_
  rw [if_pos (by have := jb.isLt; show jb.val ≤ 15; omega), hrow']
  have hM : (fun i k => mArr (VR1 m) c (ix2 i k)) = specM m c := funext fun i => funext fun k => M_eq m c i k
  have hg : (fun k o => gArr (VR1 m) c (ix2 k o)) = Cert.Spec.gind := funext fun k => funext fun o => g_eq m c k o
  rw [hM, hg]

/-- The reference's features stage, of the same arguments, is the second region's output array. -/
theorem features_eq_kernel (c : Dev nD)
    (x0 : (⟨Cert.ReferenceIdeal.S512x1024, .f32⟩ : BufTy).Contents (Elt Ideal)) (x1 : (⟨Cert.ReferenceIdeal.S1024x64x16, .f32⟩ : BufTy).Contents (Elt Ideal))
    (h0 : x0 = m ((c : Thread nD τ).loc main_arg0)) (h1 : x1 = m ((c : Thread nD τ).loc main_arg1)) :
    Cert.ReferenceIdeal.Read.val_main_v12 (F := Ideal) x0 x1 = ((dat1 (VR1 m) c).arrAt 3 cfg1.N : Vec Ideal S512x64 .f32) := by
  subst h0; subst h1
  funext idx
  rw [eq_ix2 idx]
  exact (Cert.ReferenceIdeal.RefValue.features_eq _ _ (idx 0) (idx 1)).trans (feat_eq m c (idx 0) (idx 1)).symm

/-- The reference's result stage, of the same arguments, is the kernel's result buffer. -/
theorem result_eq (c : Dev nD)
    (x0 : (⟨Cert.ReferenceIdeal.S512x1024, .f32⟩ : BufTy).Contents (Elt Ideal)) (x1 : (⟨Cert.ReferenceIdeal.S1024x64x16, .f32⟩ : BufTy).Contents (Elt Ideal))
    (h0 : x0 = m ((c : Thread nD τ).loc main_arg0)) (h1 : x1 = m ((c : Thread nD τ).loc main_arg1)) :
    Cert.ReferenceIdeal.Read.val_main_v13 (F := Ideal) x0 x1 = (W7 m c (Proc.devRef .tc main_v12) : Vec Ideal S512x1088 .f32) := by
  rw [W7_result m c]
  unfold Cert.ReferenceIdeal.Read.val_main_v13
  rw [features_eq_kernel m c x0 x1 h0 h1, h0]

end Cert.KernelIdeal.Hand

end
-- ==== Proof.lean ====
/-
  The certificate: the kernel (a projection x · W on the matrix unit, then for every pair of rows the exponential of
  minus their L1 distance within each of 64 groups of 16 projected columns, summed over the second row) against its
  jnp reference. The kernel takes the grouped distance as a product with a 0/1 group matrix on the matrix unit and sums
  the second row in 16 blocks of 32 through an accumulator; the reference sums 16 columns and 512 rows directly and
  takes each difference in the other order. Over the extended reals both are one function: a change of float format
  is the identity, sums may be regrouped, the product with a 0/1 matrix is the sum over the group's columns, and
  |a − b| = |b − a|; no law here needs the inputs finite.
  The three frames: each kernel program's run through its two regions and the host operations between them, the
  reference's generated run. The idealization rewrote nothing, so `preserves` has no conjunct.
-/
import proofs.«142424_j45286135169752_1_alg».proof.Defs
import proofs.«142424_j45286135169752_1_alg».proof.Proof.Kernel.Run
import proofs.«142424_j45286135169752_1_alg».proof.Proof.KernelIdeal.Run
import proofs.«142424_j45286135169752_1_alg».proof.Proof.KernelIdeal.Assemble
import proofs.«142424_j45286135169752_1_alg».proof.Proof.Gen.ReferenceIdeal.Run
import proofs.«142424_j45286135169752_1_alg».proof.Proof.Gen.ReferenceIdeal.Read
import proofs.«142424_j45286135169752_1_alg».proof.Proof.Gen.ReferenceIdeal
import proofs.«142424_j45286135169752_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs run, and end with one result array: the kernel's result buffer at the end of its run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.W7 m c (Proc.devRef .tc Cert.KernelIdeal.main_v12), ?_, ?_⟩
  · exact (θ_run Cert.KernelIdeal.defs _ _).mono (fun r h c =>
      ⟨h c _ (Cert.KernelIdeal.Hand.mem_uc Cert.KernelIdeal.main_v12 (by decide)),
       (h c _ (Cert.KernelIdeal.Hand.mem_uc Cert.KernelIdeal.main_arg0 (by decide))).trans (Cert.KernelIdeal.Hand.W7_main_arg0 m c),
       (h c _ (Cert.KernelIdeal.Hand.mem_uc Cert.KernelIdeal.main_arg1 (by decide))).trans (Cert.KernelIdeal.Hand.W7_main_arg1 m c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    exact (Cert.ReferenceIdeal.Read.val_main_v13_eq _ _).trans
      (Cert.KernelIdeal.Hand.result_eq m c _ _ (hagree c).1 (hagree c).2)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
